-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S1024 : Shape := ⟨1, ![1024]⟩
abbrev S128x1024 : Shape := ⟨2, ![128, 1024]⟩
abbrev S1024x1024 : Shape := ⟨2, ![1024, 1024]⟩

abbrev nBuf : Space → Nat
  | .hbm => 42
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x128, .bf16⟩
  | .hbm, ⟨24, _⟩ => ⟨S8192x128, .bf16⟩
  | .hbm, ⟨25, _⟩ => ⟨S8192x1, .i32⟩
  | .hbm, ⟨26, _⟩ => ⟨S1x8192, .i32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x1, .i32⟩
  | .local _ .vmem, ⟨7, _⟩ => ⟨S1024x1, .i32⟩
  | .local _ .vmem, ⟨8, _⟩ => ⟨S1x1024, .i32⟩
  | .local _ .vmem, ⟨9, _⟩ => ⟨S1x1024, .i32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_20 : BitVec 32 := 0#32
  let v50 : BitVec 1 := Scalar.cmpi .ne v49 c0_i32_20
  v50

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  natLt_1_32 : 1 < 32
  reduces_S1024x1024_S1024 : S1024x1024.Reduces [1] S1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  shapeCasts_S8192x1_S8192 : S8192x1.ShapeCasts S8192
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .i32 = 32 ∨ (Rect.block (s := S1x8192) S1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v16) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond1 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x1, .i32⟩
  | .hbm, ⟨30, _⟩ => ⟨S1x8192, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x128, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.Ideal.Terms.lean ====
/-
  The values the kernel body stores at one grid point, named by the body's own arithmetic: the two running row sums
  after the point from what they held before it, and the rows' proxy similarity.
-/
import proofs.«100202_j1683627180664_1_alg».proof.Proof.Gen.KernelIdeal.Launch
import proofs.«100202_j1683627180664_1_alg».proof.Proof.Gen.KernelIdeal.Skeleton
import proofs.«100202_j1683627180664_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The positives' running sum after a point: what it held (`s0`) plus the point's row sums of
    exp (2 <e_r, e_c>) [r ≠ c] [label r = label c] over the point's 1024 columns. -/
def posNext (i : grid0.Coords) (x0 x1 : Vec F S1024x128 .bf16) (x3 : Vec F S1024x1 .i32) (x4 : Vec F S1x1024 .i32)
    (s0 : Vec F S1024x1 .f32) : Vec F S1024x1 .f32 :=
  k0_pay1 (k0_pay5 i x0 x1) (k0_pay7 (F := F) x3) (k0_pay8 (F := F) x4) s0

/-- The total's running sum after a point: what it held (`s1`) plus the point's row sums of exp (2 <e_r, e_c>) [r ≠ c]. -/
def totNext (i : grid0.Coords) (x0 x1 : Vec F S1024x128 .bf16) (s1 : Vec F S1024x1 .f32) : Vec F S1024x1 .f32 :=
  k0_pay6 i x0 x1 s1

/-- The rows' proxy similarity exp (2 <e_r, p_r>). -/
def proxVal (x0 x2 : Vec F S1024x128 .bf16) : Vec F S1024x1 .f32 := k0_pay4 x0 x2

/-- The two sums' reset values (zero). -/
abbrev pos0 : Vec F S1024x1 .f32 := k0_pay2 (F := F)
abbrev tot0 : Vec F S1024x1 .f32 := k0_pay3 (F := F)

end Cert.KernelIdeal.Hand

end
-- ==== Proof.Ideal.Data.lean ====
/-
  The proof data of the one pipeline, for any float instance.
  The grid is 8 x 8, walked row-major: point t is (i, j) = (t / 8, t % 8). Along a row of points the two scratch sums
  accumulate: after point t they hold the row sums over the column blocks 0 .. j of the point's terms, starting from zero
  at j = 0 (`scAt`). The proxy similarity of the row block is stored at j = 0 and stays in its staging buffer until it is
  written back at j = 7 (`proxAt`). The invariant between points holds the two scratch buffers at `scAt` of the point before.
  Windows 0 and 1 both read the normalized embedding: each holds one half of that array's share.
-/
import proofs.«100202_j1683627180664_1_alg».proof.Proof.Ideal.Terms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the schedule, decided over the grid -/

/-- The first conditional (reset and proxy store) is taken exactly at the points with j = 0. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second conditional (copy-out of the sums) is taken exactly at the points with j = 7. -/
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)

/-- The two sums' output windows are untouched except at j = 7; the proxy's except at j = 0. -/
theorem idle5 : ∀ t : Fin cfg0.N, cfg0.idle 5 (grid0.coords t) = true ↔ t.val % 8 ≠ 7 :=
  (by decide +kernel : ∀ t : Fin grid0.N, cfg0.idle 5 (grid0.coords t) = true ↔ t.val % 8 ≠ 7)
theorem idle6 : ∀ t : Fin cfg0.N, cfg0.idle 6 (grid0.coords t) = true ↔ t.val % 8 ≠ 7 :=
  (by decide +kernel : ∀ t : Fin grid0.N, cfg0.idle 6 (grid0.coords t) = true ↔ t.val % 8 ≠ 7)
theorem idle7 : ∀ t : Fin cfg0.N, cfg0.idle 7 (grid0.coords t) = true ↔ t.val % 8 ≠ 0 :=
  (by decide +kernel : ∀ t : Fin grid0.N, cfg0.idle 7 (grid0.coords t) = true ↔ t.val % 8 ≠ 0)

/-! ## The arrays as the region finds them, and the windows' blocks -/

/-- The buffers' contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the scratch sums hold after each point -/

/-- One point's update of the pair (positives, total) from what the pair held. -/
def step (c : Dev nD) (t : Fin cfg0.N) (s : Vec F S1024x1 .f32 × Vec F S1024x1 .f32) : Vec F S1024x1 .f32 × Vec F S1024x1 .f32 :=
  (posNext (grid0.coords t) (iblk m c 0 t) (iblk m c 1 t) (iblk m c 3 t) (iblk m c 4 t) s.1,
   totNext (grid0.coords t) (iblk m c 0 t) (iblk m c 1 t) s.2)

/-- THE ACCUMULATION: the pair after point `n`; at the start of a row of points it restarts from zero. -/
def scAt (c : Dev nD) : (n : ℕ) → n < cfg0.N → Vec F S1024x1 .f32 × Vec F S1024x1 .f32
  | 0, hn => step m c ⟨0, hn⟩ (pos0, tot0)
  | n + 1, hn => step m c ⟨n + 1, hn⟩ (if (n + 1) % 8 = 0 then (pos0, tot0) else scAt c n (Nat.lt_of_succ_lt hn))

theorem scAt_first (c : Dev nD) (t : Fin cfg0.N) (h0 : t.val % 8 = 0) :
    scAt m c t.val t.isLt = step m c t (pos0, tot0) := by
  obtain ⟨n, hn⟩ := t
  cases n with
  | zero => rfl
  | succ n => show step m c _ (if _ then _ else _) = _; rw [if_pos h0]

theorem scAt_later (c : Dev nD) (t : Fin cfg0.N) (h0 : ¬ t.val % 8 = 0) :
    scAt m c t.val t.isLt = step m c t (scAt m c (t.val - 1) (Nat.lt_of_le_of_lt (Nat.sub_le _ _) t.isLt)) := by
  obtain ⟨n, hn⟩ := t
  cases n with
  | zero => exact absurd (Nat.zero_mod _) h0
  | succ n => show step m c _ (if _ then _ else _) = _; rw [if_neg h0]; rfl

/-- The proxy similarity block held in its staging buffer after point `n`: stored at the row's first point, kept afterwards. -/
def proxAt (c : Dev nD) : (n : ℕ) → n < cfg0.N → Vec F S1024x1 .f32
  | 0, hn => proxVal (iblk m c 0 ⟨0, hn⟩) (iblk m c 2 ⟨0, hn⟩)
  | n + 1, hn => if (n + 1) % 8 = 0 then proxVal (iblk m c 0 ⟨n + 1, hn⟩) (iblk m c 2 ⟨n + 1, hn⟩) else proxAt c n (Nat.lt_of_succ_lt hn)

theorem proxAt_first (c : Dev nD) (t : Fin cfg0.N) (h0 : t.val % 8 = 0) :
    proxAt m c t.val t.isLt = proxVal (iblk m c 0 t) (iblk m c 2 t) := by
  obtain ⟨n, hn⟩ := t
  cases n with
  | zero => rfl
  | succ n => show (if _ then _ else _) = _; rw [if_pos h0]

theorem proxAt_later (c : Dev nD) (t : Fin cfg0.N) (h0 : ¬ t.val % 8 = 0) :
    proxAt m c t.val t.isLt = proxAt m c (t.val - 1) (Nat.lt_of_le_of_lt (Nat.sub_le _ _) t.isLt) := by
  obtain ⟨n, hn⟩ := t
  cases n with
  | zero => exact absurd (Nat.zero_mod _) h0
  | succ n => show (if _ then _ else _) = _; rw [if_neg h0]; rfl

/-! ## The invariant between points -/

/-- The two scratch buffers, as memrefs. -/
abbrev scM0 : Memref sig .tc .vmem S1024x1 .f32 := Memref.whole cc0_scratch0
abbrev scM1 : Memref sig .tc .vmem S1024x1 .f32 := Memref.whole cc0_scratch1

/-- Before the first point the scratch holds anything; before point `n + 1` it holds the sums after point `n`. -/
def PhiS (c : Dev nD) : (n : ℕ) → n ≤ cfg0.N → sProp 𝕄
  | 0, _ => Pipeline.ΦA spec0 c
  | n + 1, hn => iprop(iprop(owns (c : Thread nD τ) scM0 fullShare (scAt m c n hn).1 ∗ owns (c : Thread nD τ) scM1 fullShare (scAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (scAt m c n hn).1 ∗ owns (c : Thread nD τ) scM1 fullShare (scAt m c n hn).2) ∗ (∃ r, prngReg c r)) := rfl

theorem PhiS_pos (c : Dev nD) (n : ℕ) (h : n ≤ cfg0.N) (hz : n ≠ 0) :
    PhiS m c n h = iprop(iprop(owns (c : Thread nD τ) scM0 fullShare (scAt m c (n - 1) (by omega)).1 ∗ owns (c : Thread nD τ) scM1 fullShare (scAt m c (n - 1) (by omega)).2) ∗ (∃ r, prngReg c r)) := by
  cases n with
  | zero => exact absurd rfl hz
  | succ n => rfl

/-- The class invariant with the scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- The arrays as the region finds them; after the body at point `t` each input's buffer at its block, the sums' output
    buffers at the sums, the proxy's at the held proxy block; windows 0 and 1 at the two halves of their common array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (scAt m c t.val t.isLt).1
    | ⟨6, _⟩ => (scAt m c t.val t.isLt).2
    | ⟨7, _⟩ => proxAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (scAt m c t.val t.isLt).1 := by dsimp only [dats]
theorem after6 (c : Dev nD) (t : Fin cfg0.N) : (dats m 0 c).after 6 t = (scAt m c t.val t.isLt).2 := by dsimp only [dats]
theorem after7 (c : Dev nD) (t : Fin cfg0.N) : (dats m 0 c).after 7 t = proxAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-- What the body left in the proxy's buffer is what the next point finds there (the window is never cut). -/
theorem kept7 (c : Dev nD) (t : Fin cfg0.N) (d) : (dats m 0 c).kept 7 t d = (dats m 0 c).after 7 t := by
  unfold Dat.kept
  rw [Pipeline.fill_of_clip_none (cfg := cfg0) 7 _ (fun _ => rfl) d ((dats m 0 c).after 7 t), Window.fill_cut]

/-- After the row's first point the proxy's staging buffer holds the proxy block of the point before: nothing stores into it
    and it is not written back until the row's last point. -/
theorem before7_later (c : Dev nD) : ∀ (n : ℕ) (hn : n < cfg0.N), ¬ n % 8 = 0 → ∀ d,
    (dats m 0 c).before 7 ⟨n, hn⟩ d = proxAt m c (n - 1) (Nat.lt_of_le_of_lt (Nat.sub_le _ _) hn) := by
  intro n
  induction n using Nat.strong_induction_on with
  | _ n ih =>
    intro hn h0 d
    have hpos : (⟨n, hn⟩ : Fin cfg0.N).val ≠ 0 := fun e => h0 (by rw [show n = 0 from e])
    have hN : n < 64 := lt_of_lt_of_eq hn (show cfg0.N = 64 from N_0)
    rw [(dats m 0 c).before_of_pos 7 ⟨n, hn⟩ hpos ((cfg0.win 7).fetch_out rfl _) d]
    have hfl : (cfg0.win 7).flush ⟨n - 1, Nat.lt_of_le_of_lt (Nat.sub_le _ _) hn⟩ = false := by
      rw [Bool.eq_false_iff]; intro h
      have := (flush0_7 ⟨n - 1, Nat.lt_of_le_of_lt (Nat.sub_le _ _) hn⟩).mp h
      dsimp only at this; omega
    rw [hfl, if_neg Bool.false_ne_true]
    unfold Dat.left
    by_cases h1 : (n - 1) % 8 = 0
    · have hlive : cfg0.idle 7 (cfg0.grid.coords ⟨n - 1, Nat.lt_of_le_of_lt (Nat.sub_le _ _) hn⟩) = false := by
        rw [Bool.eq_false_iff]; intro h
        exact ((idle7 ⟨n - 1, Nat.lt_of_le_of_lt (Nat.sub_le _ _) hn⟩).mp h) h1
      rw [hlive]; dsimp only
      rw [kept7, after7]
    · have hidle : cfg0.idle 7 (cfg0.grid.coords ⟨n - 1, Nat.lt_of_le_of_lt (Nat.sub_le _ _) hn⟩) = true :=
        (idle7 ⟨n - 1, Nat.lt_of_le_of_lt (Nat.sub_le _ _) hn⟩).mpr h1
      rw [hidle]; dsimp only
      rw [ih (n - 1) (by omega) (Nat.lt_of_le_of_lt (Nat.sub_le _ _) hn) h1 d]
      exact (proxAt_later m c ⟨n - 1, Nat.lt_of_le_of_lt (Nat.sub_le _ _) hn⟩ h1).symm

end Cert.KernelIdeal.Hand

end
-- ==== Proof.Ideal.Runs.lean ====
/-
  The kernel body at one grid point, in each of the three cases its two conditionals meet on the grid.
  A point (i, j) of the 8 x 8 grid handles rows 1024 i .. 1024 i + 1023 against columns 1024 j .. 1024 j + 1023.
  The body keeps two running row sums in scratch: the sum over the columns seen so far of
  exp (2 <e_r, e_c>) [r ≠ c]  (the total) and of the same terms with the factor [label r = label c] (the positives).
  At j = 0 both are reset to zero before the point's terms are added, and the row's proxy similarity
  exp (2 <e_r, p_r>) is stored into the third output block; at j = 7 the two sums are copied to the first two output blocks.
  Each case is stated on arbitrary whole staging memrefs holding named contents: what the stores leave is named by the
  body's own arithmetic (the skeleton's payloads), so that the value of each buffer after the point is an explicit term.
-/
import proofs.«100202_j1683627180664_1_alg».proof.Proof.Ideal.Terms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, however the zeros are spelt. -/
private theorem zeros2 : (![0, 0] : Fin 2 → Nat) = fun _ => 0 := by funext a; fin_cases a <;> rfl

/-- A store of a whole buffer (the unit rectangle at zero offsets of the buffer's own sizes), made last,
    leaves its payload: the buffer then reads that payload, whatever it held and whatever was stored before. -/
private theorem read_store_whole {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb (v := v) (f := f) (Rect.whole S) w L y
  rw [Rect.emb_whole_apply] at e
  exact e

/-- A load of a whole buffer reads its contents. -/
private theorem load_whole {sp : Space} {S : Shape} {e : EltTy} (m : Memref sig .tc sp S e) (hm : m.IsWhole)
    (X : S.Idx → Elt F e) {off : Fin S.rank → Nat} (h : off = fun _ => 0) (inb : ∀ a, off a + S.size a ≤ S.size a) :
    View.readAt (Elt F) m.view (Rect.unit off S.size inb).toLoadRect (hm.unread X) = X := by
  rw [View.readAt_eq_ld, hm.read_unread]
  subst h; funext x
  show X ((Rect.whole S).emb x) = X x
  rw [Rect.emb_whole_apply]

/-- FIRST COLUMN BLOCK (j = 0, not the last): both sums are reset and take the point's terms, the proxy similarity is stored;
    the first two output blocks are not touched. -/
theorem run_first (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : k0_cond1 i = 1#1) (hc2 : ¬ k0_cond2 i = 1#1)
    (x0 x1 x2 : Vec F S1024x128 .bf16) (x3 : Vec F S1024x1 .i32) (x4 : Vec F S1x1024 .i32) (y5 y6 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare y5 ∗ owns (c : Thread nD τ) arg8 fullShare y6 ∗ owns (c : Thread nD τ) arg9 fullShare (proxVal x0 x2)
            ∗ owns (c : Thread nD τ) arg10 fullShare (posNext i x0 x1 x3 x4 pos0) ∗ owns (c : Thread nD τ) arg11 fullShare (totNext i x0 x1 tot0)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9 arg10 harg10 arg11 harg11) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  -- what each load of a named buffer reads
  have e2 := load_whole (F := F) arg2 harg2 x0 zeros2 inb_S1024x128_S1024x128_0_0
  have e3 := load_whole (F := F) arg3 harg3 x1 zeros2 inb_S1024x128_S1024x128_0_0
  have e4 := load_whole (F := F) arg4 harg4 x2 zeros2 inb_S1024x128_S1024x128_0_0
  have e5 := load_whole (F := F) arg5 harg5 x3 zeros2 inb_S1024x1_S1024x1_0_0
  have e6 := load_whole (F := F) arg6 harg6 x4 zeros2 inb_S1x1024_S1x1024_0_0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · -- the third output block: its one store, of the proxy similarity
    iexists _; isplitr; swap; iexact H7
    ipureintro
    refine (read_store_whole _ _ zeros2 _ _ _).trans ?_
    rfl
  isplitl [H8]
  · -- the positives' sum: reset, read back (the reset value), then stored with the point's terms added
    iexists _; isplitr; swap; iexact H8
    ipureintro
    refine (read_store_whole _ _ zeros2 _ _ _).trans ?_
    sl_unfold_words
    refine (congrArg (k0_pay1 _ _ _) (View.readCov_cons_toLoadRect _ _ _ _)).trans ?_
    rfl
  · -- the total's sum, likewise
    iexists _; isplitr; swap; iexact H9
    ipureintro
    refine (read_store_whole _ _ zeros2 _ _ _).trans ?_
    sl_unfold_words
    refine (congrArg (k0_pay6 i _ _) (View.readCov_cons_toLoadRect _ _ _ _)).trans ?_
    rfl

/-- A MIDDLE COLUMN BLOCK (0 < j < 7): both sums take the point's terms; no output block is touched. -/
theorem run_middle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬ k0_cond1 i = 1#1) (hc2 : ¬ k0_cond2 i = 1#1)
    (x0 x1 x2 : Vec F S1024x128 .bf16) (x3 : Vec F S1024x1 .i32) (x4 : Vec F S1x1024 .i32) (y5 y6 y7 s0 s1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7 ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare y5 ∗ owns (c : Thread nD τ) arg8 fullShare y6 ∗ owns (c : Thread nD τ) arg9 fullShare y7
            ∗ owns (c : Thread nD τ) arg10 fullShare (posNext i x0 x1 x3 x4 s0) ∗ owns (c : Thread nD τ) arg11 fullShare (totNext i x0 x1 s1)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9 arg10 harg10 arg11 harg11) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9
  -- what each load of a named buffer reads
  have e2 := load_whole (F := F) arg2 harg2 x0 zeros2 inb_S1024x128_S1024x128_0_0
  have e3 := load_whole (F := F) arg3 harg3 x1 zeros2 inb_S1024x128_S1024x128_0_0
  have e5 := load_whole (F := F) arg5 harg5 x3 zeros2 inb_S1024x1_S1024x1_0_0
  have e6 := load_whole (F := F) arg6 harg6 x4 zeros2 inb_S1x1024_S1x1024_0_0
  have e10 := load_whole (F := F) arg10 harg10 s0 zeros2 inb_S1024x1_S1024x1_0_0
  have e11 := load_whole (F := F) arg11 harg11 s1 zeros2 inb_S1024x1_S1024x1_0_0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · -- the positives' sum: its one store, of the whole buffer, over what the load before it read
    iexists _; isplitr; swap; iexact H8
    ipureintro
    refine (read_store_whole _ _ zeros2 _ _ _).trans ?_
    rfl
  · -- the total's sum, likewise
    iexists _; isplitr; swap; iexact H9
    ipureintro
    refine (read_store_whole _ _ zeros2 _ _ _).trans ?_
    rfl

/-- THE LAST COLUMN BLOCK (j = 7, not the first): both sums take the point's terms and are copied to the first two output blocks;
    the third is not touched. -/
theorem run_last (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬ k0_cond1 i = 1#1) (hc2 : k0_cond2 i = 1#1)
    (x0 x1 x2 : Vec F S1024x128 .bf16) (x3 : Vec F S1024x1 .i32) (x4 : Vec F S1x1024 .i32) (y7 s0 s1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare y7 ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (posNext i x0 x1 x3 x4 s0) ∗ owns (c : Thread nD τ) arg8 fullShare (totNext i x0 x1 s1) ∗ owns (c : Thread nD τ) arg9 fullShare y7
            ∗ owns (c : Thread nD τ) arg10 fullShare (posNext i x0 x1 x3 x4 s0) ∗ owns (c : Thread nD τ) arg11 fullShare (totNext i x0 x1 s1)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9 arg10 harg10 arg11 harg11) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hf7; obtain rfl := harg10.eq_unread hf8
  obtain rfl := harg11.eq_unread hf9
  -- what each load of a named buffer reads
  have e2 := load_whole (F := F) arg2 harg2 x0 zeros2 inb_S1024x128_S1024x128_0_0
  have e3 := load_whole (F := F) arg3 harg3 x1 zeros2 inb_S1024x128_S1024x128_0_0
  have e5 := load_whole (F := F) arg5 harg5 x3 zeros2 inb_S1024x1_S1024x1_0_0
  have e6 := load_whole (F := F) arg6 harg6 x4 zeros2 inb_S1x1024_S1x1024_0_0
  have e10 := load_whole (F := F) arg10 harg10 s0 zeros2 inb_S1024x1_S1024x1_0_0
  have e11 := load_whole (F := F) arg11 harg11 s1 zeros2 inb_S1024x1_S1024x1_0_0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · -- the first output block: one store, of what the load just before it read of the positives' sum, itself just stored
    iexists _; isplitr; swap; iexact H5
    ipureintro
    refine (read_store_whole _ _ zeros2 _ _ _).trans ?_
    sl_unfold_words
    refine (View.readCov_cons_toLoadRect _ _ _ _).trans ?_
    rfl
  isplitl [H6]
  · -- the second output block: likewise of the total's sum
    iexists _; isplitr; swap; iexact H6
    ipureintro
    refine (read_store_whole _ _ zeros2 _ _ _).trans ?_
    sl_unfold_words
    refine (View.readCov_cons_toLoadRect _ _ _ _).trans ?_
    rfl
  isplitl [H7]
  · iexists _; isplitr; · ipureintro; exact harg9.read_unread _
    iexact H7
  isplitl [H8]
  · iexists _; isplitr; swap; iexact H8
    ipureintro
    refine (read_store_whole _ _ zeros2 _ _ _).trans ?_
    rfl
  · iexists _; isplitr; swap; iexact H9
    ipureintro
    refine (read_store_whole _ _ zeros2 _ _ _).trans ?_
    rfl

end Cert.KernelIdeal.Hand

end
-- ==== Proof.Ideal.Obligation.lean ====
/-
  The body obligation: at every grid point the kernel body, called on the point's staging buffers holding what the
  pipeline's schedule puts there, runs to the next point's invariant and leaves each buffer at what the proof data says.
  Three cases by the column block j = t % 8: the first (reset, proxy store), a middle one, the last (copy-out).
-/
import proofs.«100202_j1683627180664_1_alg».proof.Proof.Ideal.Data
import proofs.«100202_j1683627180664_1_alg».proof.Proof.Ideal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body, and its wholeness. -/
abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1 .f32 := win0_7.stage (cfg0.slots t 7)
abbrev hs7 (t : Fin cfg0.N) : (ms7 t).IsWhole := hstage0_7 ((cfg0.slots t 7).cast nbuf0_7)

theorem noflush5 (t : Fin cfg0.N) (h : t.val % 8 ≠ 7) : (cfg0.win 5).flush t = false := by
  rw [Bool.eq_false_iff]; intro hf; exact h ((flush0_5 t).mp hf)
theorem noflush6 (t : Fin cfg0.N) (h : t.val % 8 ≠ 7) : (cfg0.win 6).flush t = false := by
  rw [Bool.eq_false_iff]; intro hf; exact h ((flush0_6 t).mp hf)
theorem noflush7 (t : Fin cfg0.N) (h : t.val % 8 ≠ 7) : (cfg0.win 7).flush t = false := by
  rw [Bool.eq_false_iff]; intro hf; exact h ((flush0_7 t).mp hf)
theorem live5 (t : Fin cfg0.N) (h : t.val % 8 = 7) : cfg0.idle 5 (cfg0.grid.coords t) = false := by
  rw [Bool.eq_false_iff]; intro hi; exact ((idle5 t).mp hi) h
theorem live6 (t : Fin cfg0.N) (h : t.val % 8 = 7) : cfg0.idle 6 (cfg0.grid.coords t) = false := by
  rw [Bool.eq_false_iff]; intro hi; exact ((idle6 t).mp hi) h
theorem live7 (t : Fin cfg0.N) (h : t.val % 8 = 0) : cfg0.idle 7 (cfg0.grid.coords t) = false := by
  rw [Bool.eq_false_iff]; intro hi; exact ((idle7 t).mp hi) h

/-- An input's buffer is handed back holding its block. -/
theorem leaves_in0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl]; dsimp only; rw [after0]
theorem leaves_in1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl]; dsimp only; rw [after1]
theorem leaves_in2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl]; dsimp only; rw [after2]
theorem leaves_in3 (c : Dev nD) (t : Fin cfg0.N) :
    (dats m 0 c).leavesExact 3 t = owns (c : Thread nD τ) (ms3 t) fullShare (iblk m c 3 t) := by
  unfold Dat.leavesExact; rw [show cfg0.idle 3 (cfg0.grid.coords t) = false from rfl]; dsimp only; rw [after3]
theorem leaves_in4 (c : Dev nD) (t : Fin cfg0.N) :
    (dats m 0 c).leavesExact 4 t = owns (c : Thread nD τ) (ms4 t) fullShare (iblk m c 4 t) := by
  unfold Dat.leavesExact; rw [show cfg0.idle 4 (cfg0.grid.coords t) = false from rfl]; dsimp only; rw [after4]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; the column block j = t % 8 says which case the point is in;
    the invariant hands over the two sums at what the point before left (anything at a row's first point) and takes them
    back at this point's; an output the case does not store into is handed back as found, and at the last column block the
    proxy's buffer, untouched since the row's first point, is what is written back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 64 := lt_of_lt_of_eq t.isLt (show cfg0.N = 64 from N_0)
  by_cases h0 : t.val % 8 = 0
  · -- the row's first point
    have h7 : t.val % 8 ≠ 7 := by omega
    rw [Dat.leavesExact_idle (dats m 0 c) 5 t ((idle5 t).mpr h7) (noflush5 t h7),
      Dat.leavesExact_idle (dats m 0 c) 6 t ((idle6 t).mpr h7) (noflush6 t h7)]
    rw [show (dats m 0 c).leavesExact 7 t = owns (c : Thread nD τ) (ms7 t) fullShare ((dats m 0 c).after 7 t) from by
      unfold Dat.leavesExact; rw [live7 t h0], after7, proxAt_first m c t h0]
    rw [scAt_first m c t h0]; unfold step; dsimp only
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ _ _ ((hcond1 t).mpr h0) (fun h => h7 ((hcond2 t).mp h))
        (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexact H7
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ _ _ ((hcond1 t).mpr h0) (fun h => h7 ((hcond2 t).mp h))
        (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexists _; iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexact H7
  · have hz : t.val ≠ 0 := fun e => h0 (by rw [e])
    rw [PhiS_castSucc m c t, PhiS_pos m c _ _ hz]
    rw [scAt_later m c t h0]; unfold step; dsimp only
    by_cases h7 : t.val % 8 = 7
    · -- the row's last point
      rw [show (dats m 0 c).leavesExact 5 t = owns (c : Thread nD τ) (ms5 t) fullShare ((dats m 0 c).after 5 t) from by
        unfold Dat.leavesExact; rw [live5 t h7], after5, scAt_later m c t h0]
      rw [show (dats m 0 c).leavesExact 6 t = owns (c : Thread nD τ) (ms6 t) fullShare ((dats m 0 c).after 6 t) from by
        unfold Dat.leavesExact; rw [live6 t h7], after6, scAt_later m c t h0]
      rw [show (dats m 0 c).leavesExact 7 t = owns (c : Thread nD τ) (ms7 t) fullShare ((dats m 0 c).after 7 t) from by
        unfold Dat.leavesExact; rw [(idle7 t).mpr h0, (flush0_7 t).mpr h7], after7, proxAt_later m c t h0]
      unfold step; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      rw [before7_later m c t.val t.isLt h0 d7]
      iapply (run_last c (grid0.coords t) _ _ _ _ _ _ _ _ _ _ _ _ _ _ _ _ _ _ _ _ (fun h => h0 ((hcond1 t).mp h)) ((hcond2 t).mpr h7)
        (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point
      rw [Dat.leavesExact_idle (dats m 0 c) 5 t ((idle5 t).mpr h7) (noflush5 t h7),
        Dat.leavesExact_idle (dats m 0 c) 6 t ((idle6 t).mpr h7) (noflush6 t h7),
        Dat.leavesExact_idle (dats m 0 c) 7 t ((idle7 t).mpr h0) (noflush7 t h7)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_middle c (grid0.coords t) _ _ _ _ _ _ _ _ _ _ _ _ _ _ _ _ _ _ _ _ (fun h => h0 ((hcond1 t).mp h)) (fun h => h7 ((hcond2 t).mp h))
        (iblk m c 0 t) (iblk m c 1 t) (iblk m c 2 t) (iblk m c 3 t) (iblk m c 4 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexists _; iexact H7

/-- The body obligation, at every point. -/
theorem body_obligation (c : Dev nD) : BodyObligation (dats (F := F) m 0 c) (defs₀ (F := F)) Variants.none () Set.univ := fun t => by
  rw [bigSep_W0, bigSep_W0]
  exact sound_body m c t
/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the sums' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.Ideal.Launch.lean ====
/-
  The launch: @main is the host operations that normalize the two inputs and reshape the labels, the kernel region, and the
  host operations that turn the three row vectors into the loss. Windows 0 and 1 of the region both read the normalized
  embedding: the array's full share is split in two halves at the region's entry, one per window, and the halves are
  joined again at its exit, before the later host operations run. The run's post names every array of the pipeline after
  the last write-back and every other buffer after the later host operations.
-/
import proofs.«100202_j1683627180664_1_alg».proof.Proof.Ideal.Obligation

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region allocate nothing. -/
theorem hostOps0_fresh : (hostOps0 : List (HloOp τ sig (Elt F))).Forall fun op => op.fresh = ∅ := by
  simp only [List.Forall]; repeat' constructor

/-- Nor do the ones after it. -/
theorem hostOps1_fresh : (hostOps1 : List (HloOp τ sig (Elt F))).Forall fun op => op.fresh = ∅ := by
  simp only [List.Forall]; repeat' constructor

/-- @main reduces to the region continued by the later host operations, entered at the contents the earlier ones leave. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## What the host operations write -/

/-- An operation whose one result is listed writes within the list. -/
theorem writes_sub_of {W : List (Ref sig .tc)} {y : Ref sig .tc} {op : HloOp τ sig (Elt F)}
    (h : op.writes = {Proc.devRef .tc y}) (hy : y ∈ W) : op.writes ⊆ (W.map (Proc.devRef (τ := τ) .tc)).toFinset := by
  rw [h, Finset.singleton_subset_iff, List.mem_toFinset]; exact List.mem_map.mpr ⟨y, hy, rfl⟩

/-- The results of the host operations before the region, in order. -/
abbrev res0 : List (Ref sig .tc) :=
  [main_v0, main_cst, main_v1, main_v2, main_v3, main_cst_0, main_v4, main_v5, main_v6, main_v7, main_v8, main_cst_1, main_v9, main_v10, main_v11, main_cst_2, main_v12, main_v13, main_v14, main_v15, main_v16, main_v17, main_v18, main_v19]
/-- The results of the host operations after the region, in order. -/
abbrev res1 : List (Ref sig .tc) :=
  [main_v21, main_v22, main_v23, main_v24, main_v25, main_v26, main_v27, main_cst_3, main_v28, main_cst_4, main_v29, main_v30]

/-- Each host operation before the region writes its own result only. -/
theorem hostOps0_writes : (hostOps0 : List (HloOp τ sig (Elt F))).Forall fun op => op.writes ⊆ (res0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
/-- And so does each one after it. -/
theorem hostOps1_writes : (hostOps1 : List (HloOp τ sig (Elt F))).Forall fun op => op.writes ⊆ (res1.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer that is no result of an earlier host operation enters the region as @main found it. -/
theorem V_of_not_res0 (c : Dev nD) (b : Ref sig .tc) (hb : b ∉ res0) : V m c b = m ((c : Thread nD τ).loc b) :=
  StableHlo.after_of_writes_sub _ _ hostOps0_writes hb

/-- A buffer that is no array of the pipeline and no result of a later host operation ends as it entered the region. -/
theorem afterTail_of_not_res1 (c : Dev nD) (b : Ref sig .tc) (hb : b ∉ res1) (ha : ∀ w, Pipeline.arrRef spec0 w ≠ b) :
    Pipeline.afterTail₀ cfgs (dats m) 0 (V0 m) [hostOps1] c b = V m c b := by
  unfold Pipeline.afterTail₀
  exact (StableHlo.after_of_writes_sub (W := res1) ([hostOps1].flatten) _ hostOps1_writes hb).trans
    (Pipeline.withArrays_of_ne _ c (V0 m c) _ b ha)

/-! ## The arrays and the buffers behind them -/

/-- The distinct buffers behind the eight windows' arrays: seven, the normalized embedding behind windows 0 and 1. -/
theorem arr_image : Finset.univ.image (Pipeline.arrRef spec0)
    = ([main_v16, main_v17, main_v18, main_v19, main_v20_0, main_v20_1, main_v20_2] : List (Ref sig .tc)).toFinset := by decide

/-- Those seven buffers, whole, one by one. -/
theorem arrBufs_eq (c : Dev nD) (W : (b : Ref sig .tc) → Buf (Elt F) ((c : Thread nD τ).loc b)) :
    (Pipeline.arrBufs spec0 c W : sProp 𝕄)
      = iprop((((c : Thread nD τ).loc main_v16) ↦{fullShare} W main_v16) ∗ (((c : Thread nD τ).loc main_v17) ↦{fullShare} W main_v17)
          ∗ (((c : Thread nD τ).loc main_v18) ↦{fullShare} W main_v18) ∗ (((c : Thread nD τ).loc main_v19) ↦{fullShare} W main_v19)
          ∗ (((c : Thread nD τ).loc main_v20_0) ↦{fullShare} W main_v20_0) ∗ (((c : Thread nD τ).loc main_v20_1) ↦{fullShare} W main_v20_1)
          ∗ (((c : Thread nD τ).loc main_v20_2) ↦{fullShare} W main_v20_2)) := by
  unfold Pipeline.arrBufs
  exact bigSep_eq_bigSepL_of_eq _ arr_image (by decide) _

/-- The eight windows' arrays at any contents, one by one: the normalized embedding at its two halves, the rest whole. -/
theorem arrays_eq (c : Dev nD) (A : (w : Fin cfg0.W) → Buf (Elt F) ((cfg0.win w).arr.view.loc (c : Thread nD τ))) :
    ((dats m 0 c).arrays A : sProp 𝕄)
      = iprop((((c : Thread nD τ).loc main_v16) ↦{fullShare.left} A 0) ∗ (((c : Thread nD τ).loc main_v16) ↦{fullShare.right} A 1)
          ∗ (((c : Thread nD τ).loc main_v17) ↦{fullShare} A 2)
          ∗ (((c : Thread nD τ).loc main_v18) ↦{fullShare} A 3) ∗ (((c : Thread nD τ).loc main_v19) ↦{fullShare} A 4)
          ∗ (((c : Thread nD τ).loc main_v20_0) ↦{fullShare} A 5) ∗ (((c : Thread nD τ).loc main_v20_1) ↦{fullShare} A 6)
          ∗ (((c : Thread nD τ).loc main_v20_2) ↦{fullShare} A 7)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- The seven buffers whole are the eight windows' arrays at the same contents: the normalized embedding's full share
    splits into the halves of windows 0 and 1. -/
theorem arrays_of_bufs (c : Dev nD) (W : (b : Ref sig .tc) → Buf (Elt F) ((c : Thread nD τ).loc b))
    (A : (w : Fin cfg0.W) → Buf (Elt F) ((cfg0.win w).arr.view.loc (c : Thread nD τ)))
    (h0 : A 0 = W main_v16) (h1 : A 1 = W main_v16) (h2 : A 2 = W main_v17) (h3 : A 3 = W main_v18) (h4 : A 4 = W main_v19)
    (h5 : A 5 = W main_v20_0) (h6 : A 6 = W main_v20_1) (h7 : A 7 = W main_v20_2) :
    (Pipeline.arrBufs spec0 c W : sProp 𝕄) ⊢ (dats m 0 c).arrays A := by
  rw [arrBufs_eq, arrays_eq, h0, h1, h2, h3, h4, h5, h6, h7]
  iintro ⟨H16, H17, H18, H19, H0, H1, H2⟩
  icases (pointsTo_share (PosShare.mem_left_op_right fullShare)).1 $$ H16 with ⟨Hl, Hr⟩
  isplitl [Hl]; · iexact Hl
  isplitl [Hr]; · iexact Hr
  isplitl [H17]; · iexact H17
  isplitl [H18]; · iexact H18
  isplitl [H19]; · iexact H19
  isplitl [H0]; · iexact H0
  isplitl [H1]; · iexact H1
  iexact H2

/-- And back: the two halves join into the normalized embedding's full share. -/
theorem bufs_of_arrays (c : Dev nD) (W : (b : Ref sig .tc) → Buf (Elt F) ((c : Thread nD τ).loc b))
    (A : (w : Fin cfg0.W) → Buf (Elt F) ((cfg0.win w).arr.view.loc (c : Thread nD τ)))
    (h0 : A 0 = W main_v16) (h1 : A 1 = W main_v16) (h2 : A 2 = W main_v17) (h3 : A 3 = W main_v18) (h4 : A 4 = W main_v19)
    (h5 : A 5 = W main_v20_0) (h6 : A 6 = W main_v20_1) (h7 : A 7 = W main_v20_2) :
    (dats m 0 c).arrays A ⊢ (Pipeline.arrBufs spec0 c W : sProp 𝕄) := by
  rw [arrBufs_eq, arrays_eq, h0, h1, h2, h3, h4, h5, h6, h7]
  iintro ⟨Hl, Hr, H17, H18, H19, H0, H1, H2⟩
  isplitl [Hl Hr]
  · iapply (pointsTo_share (PosShare.mem_left_op_right fullShare)).2
    isplitl [Hl]; · iexact Hl
    iexact Hr
  isplitl [H17]; · iexact H17
  isplitl [H18]; · iexact H18
  isplitl [H19]; · iexact H19
  isplitl [H0]; · iexact H0
  isplitl [H1]; · iexact H1
  iexact H2

/-- At the region's entry the seven buffers behind the eight windows are dealt to the windows: the normalized embedding
    in two halves, every other buffer whole. -/
theorem hsplit (c : Dev nD) :
    (Pipeline.arrBufs spec0 c (V m c) : sProp 𝕄) ⊢ (dats m 0 c).arrays ((dats m 0 c).arrAt · 0) :=
  arrays_of_bufs m c (V m c) _ (A_eq m c 0) (A_eq m c 1) (A_eq m c 2) (A_eq m c 3) (A_eq m c 4) (A_eq m c 5) (A_eq m c 6) (A_eq m c 7)

/-! ## The later host operations -/

/-- The arrays at the region's exit: after the last write-back. -/
abbrev exitA (c : Dev nD) : (w : Fin cfg0.W) → Buf (Elt F) ((cfg0.win w).arr.view.loc (c : Thread nD τ)) :=
  fun w => (dats m 0 c).arrAt w cfg0.N

/-- The buffers' contents at the region's exit: the arrays after the last write-back, every other buffer as at the entry. -/
abbrev exitW (c : Dev nD) : Valuation τ sig (Elt F) := Pipeline.withArrays spec0 c (V0 m c) (exitA m c)

/-- Windows 0 and 1 are inputs: their array is never written back, and ends as the region found it. -/
theorem exitA_0 (c : Dev nD) : exitA m c 0 = V m c main_v16 := ((dats m 0 c).arrAt_in 0 rfl _).trans (A_eq m c 0)
theorem exitA_1 (c : Dev nD) : exitA m c 1 = V m c main_v16 := ((dats m 0 c).arrAt_in 1 rfl _).trans (A_eq m c 1)

/-- Two windows on one buffer are the same window, or they are windows 0 and 1. -/
theorem arrRef_eq : ∀ w w' : Fin 8, Pipeline.arrRef spec0 w' = Pipeline.arrRef spec0 w → w' = w ∨ (w' = 1 ∧ w = 0) ∨ (w' = 0 ∧ w = 1) := by
  decide

/-- Contents that name each array by a window read back at a window's array as that window's, whichever window on the
    buffer is chosen, when windows 0 and 1 agree. -/
theorem withArrays_arr (c : Dev nD) (W : Valuation τ sig (Elt F))
    (A : (w : Fin cfg0.W) → Buf (Elt F) ((cfg0.win w).arr.view.loc (c : Thread nD τ))) (h01 : A 1 = A 0) (w : Fin 8) :
    Pipeline.withArrays spec0 c W A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 8) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  rcases arrRef_eq w w' (Proc.devRef_injective _ e) with rfl | ⟨rfl, rfl⟩ | ⟨rfl, rfl⟩
  · rfl
  · exact h01
  · exact h01.symm

/-- The unscoped buffers held at one valuation are the buffers behind the arrays and the bypassing buffers at it. -/
theorem held_eq (c : Dev nD) (W : Valuation τ sig (Elt F)) :
    (StableHlo.held (c : Thread nD τ) (Pipeline.ucRefs τ sig) W : sProp 𝕄)
      = iprop((Pipeline.arrBufs spec0 c (fun b => W (Proc.devRef .tc b)) : sProp 𝕄)
          ∗ Pipeline.unscopedRest spec0 c (fun b => W (Proc.devRef .tc b))) :=
  (Pipeline.unscopedBufs_held (Ix := Unit) (Name := ℕ) (U := UR sig nD τ) (Lvl := ℕ) c W).symm.trans
    (Pipeline.unscopedBufs_split₀ cfgs 0 winFacts₀0.arr_unscoped c _)

/-- At the region's exit the arrays and the bypassing buffers are every unscoped buffer, whole, at the exit contents. -/
theorem exit_held (c : Dev nD) :
    iprop((dats m 0 c).arrays (exitA m c) ∗ Pipeline.unscopedRest spec0 c (V m c))
      ⊢ (StableHlo.held (c : Thread nD τ) (Pipeline.ucRefs τ sig) (exitW m c) : sProp 𝕄) := by
  have h01 : exitA m c 1 = exitA m c 0 := (exitA_1 m c).trans (exitA_0 m c).symm
  rw [held_eq]
  iintro ⟨HA, HR⟩
  isplitl [HA]
  · iapply (bufs_of_arrays m c (fun b => exitW m c (Proc.devRef .tc b)) (exitA m c)
      (withArrays_arr c _ _ h01 0).symm (withArrays_arr c _ _ h01 1).symm (withArrays_arr c _ _ h01 2).symm
      (withArrays_arr c _ _ h01 3).symm (withArrays_arr c _ _ h01 4).symm (withArrays_arr c _ _ h01 5).symm
      (withArrays_arr c _ _ h01 6).symm (withArrays_arr c _ _ h01 7).symm)
    iexact HA
  · iapply (show (Pipeline.unscopedRest spec0 c (V m c) : sProp 𝕄) ⊢ Pipeline.unscopedRest spec0 c (fun b => exitW m c (Proc.devRef .tc b)) from by
      unfold Pipeline.unscopedRest
      exact Entails.of_eq (bigSep_congr fun b hb =>
        congrArg (fun f => (((c : Thread nD τ).loc b) ↦{fullShare} f : sProp 𝕄))
          (Pipeline.withArrays_of_ne spec0 c (V0 m c) (exitA m c) b fun w e =>
            (Finset.mem_sdiff.mp hb).2 (Finset.mem_image.mpr ⟨w, Finset.mem_univ _, e⟩)).symm))
    iexact HR

/-- After the later host operations every unscoped buffer, whole, is the arrays as they were at the exit — no operation
    writes one — and the bypassing buffers at what the operations leave. -/
theorem held_exit (c : Dev nD) :
    (StableHlo.held (c : Thread nD τ) (Pipeline.ucRefs τ sig) (StableHlo.after ([hostOps1].flatten) (exitW m c)) : sProp 𝕄)
      ⊢ iprop((dats m 0 c).arrays (exitA m c)
          ∗ Pipeline.unscopedRest spec0 c (Pipeline.afterTail₀ cfgs (dats m) 0 (V0 m) [hostOps1] c)) := by
  have h01 : exitA m c 1 = exitA m c 0 := (exitA_1 m c).trans (exitA_0 m c).symm
  have hk : ∀ w : Fin 8, Pipeline.arrRef spec0 w ∉ res1 → exitA m c w
      = StableHlo.after ([hostOps1].flatten) (exitW m c) (Proc.devRef .tc (Pipeline.arrRef spec0 w)) := fun w hw =>
    ((StableHlo.after_of_writes_sub (W := res1) ([hostOps1].flatten) _ hostOps1_writes hw).trans (withArrays_arr c _ _ h01 w)).symm
  rw [held_eq]
  iintro ⟨HA, HR⟩
  isplitl [HA]
  · iapply (arrays_of_bufs m c (fun b => StableHlo.after ([hostOps1].flatten) (exitW m c) (Proc.devRef .tc b)) (exitA m c)
      (hk 0 (by decide)) (hk 1 (by decide)) (hk 2 (by decide)) (hk 3 (by decide)) (hk 4 (by decide)) (hk 5 (by decide))
      (hk 6 (by decide)) (hk 7 (by decide)))
    iexact HA
  · unfold Pipeline.afterTail₀
    iexact HR

/-- From the region's exit the later host operations run within the arrays and the bypassing buffers, and hand the arrays
    back as they were. -/
theorem htail (c : Dev nD) (Q' : PUnit → sProp 𝕄) :
    iprop((iprop((dats m 0 c).arrays ((dats m 0 c).arrAt · cfg0.N)
              ∗ Pipeline.unscopedRest spec0 c (Pipeline.afterTail₀ cfgs (dats m) 0 (V0 m) [hostOps1] c)) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  have hsub : ∀ ops ∈ ([hostOps1] : List (List (HloOp τ sig (Elt F)))), ∀ op ∈ ops, op.bufs ⊆ Pipeline.ucRefs τ sig := by
    intro ops hops op hop
    obtain rfl := List.mem_singleton.mp hops
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    obtain rfl := List.mem_singleton.mp hops
    exact (List.forall_iff_forall_mem.mp hostOps1_fresh) op hop
  show _ ⊢ wp frame _ Set.univ (Pipeline.chain (([hostOps1] : List (List (HloOp τ sig (Elt F)))).map StableHlo.seq ++ [])) Q'
  iintro ⟨Hk, Hb, HA, HR⟩
  iapply (Pipeline.wp_seqs_then (fun q => (cfgs q).toPCfg (Val := Elt F)) defs₀ Variants.none c (Pipeline.ucRefs τ sig) [] [hostOps1]
    hsub hfresh (exitW m c)) $$ [Hb HA HR]
  · isplitl [Hb]; · iexact Hb
    iapply (exit_held m c)
    isplitl [HA]; · iexact HA
    iexact HR
  iintro Hb
  rw [Pipeline.chain_nil, wp_pure]
  imodintro
  iapply Hk
  icases Hb with ⟨-, H⟩
  iapply (held_exit m c)
  iexact H

set_option backward.isDefEq.respectTransparency.types false in
/-- Every weakly fair execution of @main terminates, each array of the pipeline ends at what the proof data computes
    after the last write-back, and every other unscoped buffer at what the later host operations leave. -/
theorem run_main : θ_run defs (onTc (τ := τ) (main (F := F))) (s₀ m ρ)
    (Pipeline.FramePost cfgs (dats m) 0 (Pipeline.afterTail₀ cfgs (dats m) 0 (V0 m) [hostOps1])) := by
  classical
  exact Pipeline.θ_run_region_pf_tail (fun q => (cfgs q).toPCfg (Val := Elt F)) (fun q => (cfgs q).toPCfg_adm) (dats m) ()
    cellOf_inj (0 : Fin 1) winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (Pipeline.afterTail₀ cfgs (dats m) 0 (V0 m) [hostOps1] c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefs sig spec0,
      s.mem ((c : Thread nD τ).loc b) = Pipeline.afterTail₀ cfgs (dats m) 0 (V0 m) [hostOps1] c b)
    (hY := fun c s' => by
      iintro ⟨-, HU, HSI⟩
      unfold Pipeline.unscopedRest
      imodintro
      iapply (pointsTo_read_all (Pipeline.restRefs sig spec0) (fun b => (c : Thread nD τ).loc b)
        (Pipeline.afterTail₀ cfgs (dats m) 0 (V0 m) [hostOps1] c) s')
      isplitl [HU] <;> iassumption)
    (hQ := fun s h c => ⟨(h c).1, (h c).2.2⟩)

/-! ## The frame -/

/-- @main's three arguments and its result bypass the region: unscoped buffers that are no window's array. -/
theorem mem_rest_arg0 : main_arg0 ∈ Pipeline.restRefs sig spec0 := Pipeline.mem_restRefs_of _ rfl (by decide)
theorem mem_rest_arg1 : main_arg1 ∈ Pipeline.restRefs sig spec0 := Pipeline.mem_restRefs_of _ rfl (by decide)
theorem mem_rest_arg2 : main_arg2 ∈ Pipeline.restRefs sig spec0 := Pipeline.mem_restRefs_of _ rfl (by decide)
theorem mem_rest_v30 : main_v30 ∈ Pipeline.restRefs sig spec0 := Pipeline.mem_restRefs_of _ rfl (by decide)

/-- No host operation writes an argument: after the later operations each is as @main found it. -/
theorem tail_arg0 (c : Dev nD) :
    Pipeline.afterTail₀ cfgs (dats m) 0 (V0 m) [hostOps1] c main_arg0 = m ((c.tc : Thread nD τ).loc main_arg0) :=
  (afterTail_of_not_res1 m c main_arg0 (by decide) (by decide)).trans (V_of_not_res0 m c main_arg0 (by decide))
theorem tail_arg1 (c : Dev nD) :
    Pipeline.afterTail₀ cfgs (dats m) 0 (V0 m) [hostOps1] c main_arg1 = m ((c.tc : Thread nD τ).loc main_arg1) :=
  (afterTail_of_not_res1 m c main_arg1 (by decide) (by decide)).trans (V_of_not_res0 m c main_arg1 (by decide))
theorem tail_arg2 (c : Dev nD) :
    Pipeline.afterTail₀ cfgs (dats m) 0 (V0 m) [hostOps1] c main_arg2 = m ((c.tc : Thread nD τ).loc main_arg2) :=
  (afterTail_of_not_res1 m c main_arg2 (by decide) (by decide)).trans (V_of_not_res0 m c main_arg2 (by decide))

/-- The frame: @main runs to the end and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have hr := (h c).2
  exact ⟨(hr main_arg0 mem_rest_arg0).trans (tail_arg0 m c), (hr main_arg1 mem_rest_arg1).trans (tail_arg1 m c),
    (hr main_arg2 mem_rest_arg2).trans (tail_arg2 m c)⟩

end Cert.KernelIdeal.Hand

end
-- ==== Proof.Bits.Terms.lean ====
/-
  The values the kernel body stores at one grid point, named by the body's own arithmetic: the two running row sums
  after the point from what they held before it, and the rows' proxy similarity.
-/
import proofs.«100202_j1683627180664_1_alg».proof.Proof.Gen.Kernel.Launch
import proofs.«100202_j1683627180664_1_alg».proof.Proof.Gen.Kernel.Skeleton
import proofs.«100202_j1683627180664_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The positives' running sum after a point: what it held (`s0`) plus the point's row sums of
    exp (2 <e_r, e_c>) [r ≠ c] [label r = label c] over the point's 1024 columns. -/
def posNext (i : grid0.Coords) (x0 x1 : Vec F S1024x128 .bf16) (x3 : Vec F S1024x1 .i32) (x4 : Vec F S1x1024 .i32)
    (s0 : Vec F S1024x1 .f32) : Vec F S1024x1 .f32 :=
  k0_pay1 (k0_pay5 i x0 x1) (k0_pay7 (F := F) x3) (k0_pay8 (F := F) x4) s0

/-- The total's running sum after a point: what it held (`s1`) plus the point's row sums of exp (2 <e_r, e_c>) [r ≠ c]. -/
def totNext (i : grid0.Coords) (x0 x1 : Vec F S1024x128 .bf16) (s1 : Vec F S1024x1 .f32) : Vec F S1024x1 .f32 :=
  k0_pay6 i x0 x1 s1

/-- The rows' proxy similarity exp (2 <e_r, p_r>). -/
def proxVal (x0 x2 : Vec F S1024x128 .bf16) : Vec F S1024x1 .f32 := k0_pay4 x0 x2

/-- The two sums' reset values (zero). -/
abbrev pos0 : Vec F S1024x1 .f32 := k0_pay2 (F := F)
abbrev tot0 : Vec F S1024x1 .f32 := k0_pay3 (F := F)

end Cert.Kernel.Hand

end
-- ==== Proof.Bits.Data.lean ====
/-
  The proof data of the one pipeline, for any float instance.
  The grid is 8 x 8, walked row-major: point t is (i, j) = (t / 8, t % 8). Along a row of points the two scratch sums
  accumulate: after point t they hold the row sums over the column blocks 0 .. j of the point's terms, starting from zero
  at j = 0 (`scAt`). The proxy similarity of the row block is stored at j = 0 and stays in its staging buffer until it is
  written back at j = 7 (`proxAt`). The invariant between points holds the two scratch buffers at `scAt` of the point before.
  Windows 0 and 1 both read the normalized embedding: each holds one half of that array's share.
-/
import proofs.«100202_j1683627180664_1_alg».proof.Proof.Bits.Terms

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the schedule, decided over the grid -/

/-- The first conditional (reset and proxy store) is taken exactly at the points with j = 0. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second conditional (copy-out of the sums) is taken exactly at the points with j = 7. -/
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)

/-- The two sums' output windows are untouched except at j = 7; the proxy's except at j = 0. -/
theorem idle5 : ∀ t : Fin cfg0.N, cfg0.idle 5 (grid0.coords t) = true ↔ t.val % 8 ≠ 7 :=
  (by decide +kernel : ∀ t : Fin grid0.N, cfg0.idle 5 (grid0.coords t) = true ↔ t.val % 8 ≠ 7)
theorem idle6 : ∀ t : Fin cfg0.N, cfg0.idle 6 (grid0.coords t) = true ↔ t.val % 8 ≠ 7 :=
  (by decide +kernel : ∀ t : Fin grid0.N, cfg0.idle 6 (grid0.coords t) = true ↔ t.val % 8 ≠ 7)
theorem idle7 : ∀ t : Fin cfg0.N, cfg0.idle 7 (grid0.coords t) = true ↔ t.val % 8 ≠ 0 :=
  (by decide +kernel : ∀ t : Fin grid0.N, cfg0.idle 7 (grid0.coords t) = true ↔ t.val % 8 ≠ 0)

/-! ## The arrays as the region finds them, and the windows' blocks -/

/-- The buffers' contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the scratch sums hold after each point -/

/-- One point's update of the pair (positives, total) from what the pair held. -/
def step (c : Dev nD) (t : Fin cfg0.N) (s : Vec F S1024x1 .f32 × Vec F S1024x1 .f32) : Vec F S1024x1 .f32 × Vec F S1024x1 .f32 :=
  (posNext (grid0.coords t) (iblk m c 0 t) (iblk m c 1 t) (iblk m c 3 t) (iblk m c 4 t) s.1,
   totNext (grid0.coords t) (iblk m c 0 t) (iblk m c 1 t) s.2)

/-- THE ACCUMULATION: the pair after point `n`; at the start of a row of points it restarts from zero. -/
def scAt (c : Dev nD) : (n : ℕ) → n < cfg0.N → Vec F S1024x1 .f32 × Vec F S1024x1 .f32
  | 0, hn => step m c ⟨0, hn⟩ (pos0, tot0)
  | n + 1, hn => step m c ⟨n + 1, hn⟩ (if (n + 1) % 8 = 0 then (pos0, tot0) else scAt c n (Nat.lt_of_succ_lt hn))

theorem scAt_first (c : Dev nD) (t : Fin cfg0.N) (h0 : t.val % 8 = 0) :
    scAt m c t.val t.isLt = step m c t (pos0, tot0) := by
  obtain ⟨n, hn⟩ := t
  cases n with
  | zero => rfl
  | succ n => show step m c _ (if _ then _ else _) = _; rw [if_pos h0]

theorem scAt_later (c : Dev nD) (t : Fin cfg0.N) (h0 : ¬ t.val % 8 = 0) :
    scAt m c t.val t.isLt = step m c t (scAt m c (t.val - 1) (Nat.lt_of_le_of_lt (Nat.sub_le _ _) t.isLt)) := by
  obtain ⟨n, hn⟩ := t
  cases n with
  | zero => exact absurd (Nat.zero_mod _) h0
  | succ n => show step m c _ (if _ then _ else _) = _; rw [if_neg h0]; rfl

/-- The proxy similarity block held in its staging buffer after point `n`: stored at the row's first point, kept afterwards. -/
def proxAt (c : Dev nD) : (n : ℕ) → n < cfg0.N → Vec F S1024x1 .f32
  | 0, hn => proxVal (iblk m c 0 ⟨0, hn⟩) (iblk m c 2 ⟨0, hn⟩)
  | n + 1, hn => if (n + 1) % 8 = 0 then proxVal (iblk m c 0 ⟨n + 1, hn⟩) (iblk m c 2 ⟨n + 1, hn⟩) else proxAt c n (Nat.lt_of_succ_lt hn)

theorem proxAt_first (c : Dev nD) (t : Fin cfg0.N) (h0 : t.val % 8 = 0) :
    proxAt m c t.val t.isLt = proxVal (iblk m c 0 t) (iblk m c 2 t) := by
  obtain ⟨n, hn⟩ := t
  cases n with
  | zero => rfl
  | succ n => show (if _ then _ else _) = _; rw [if_pos h0]

theorem proxAt_later (c : Dev nD) (t : Fin cfg0.N) (h0 : ¬ t.val % 8 = 0) :
    proxAt m c t.val t.isLt = proxAt m c (t.val - 1) (Nat.lt_of_le_of_lt (Nat.sub_le _ _) t.isLt) := by
  obtain ⟨n, hn⟩ := t
  cases n with
  | zero => exact absurd (Nat.zero_mod _) h0
  | succ n => show (if _ then _ else _) = _; rw [if_neg h0]; rfl

/-! ## The invariant between points -/

/-- The two scratch buffers, as memrefs. -/
abbrev scM0 : Memref sig .tc .vmem S1024x1 .f32 := Memref.whole cc0_scratch0
abbrev scM1 : Memref sig .tc .vmem S1024x1 .f32 := Memref.whole cc0_scratch1

/-- Before the first point the scratch holds anything; before point `n + 1` it holds the sums after point `n`. -/
def PhiS (c : Dev nD) : (n : ℕ) → n ≤ cfg0.N → sProp 𝕄
  | 0, _ => Pipeline.ΦA spec0 c
  | n + 1, hn => iprop(iprop(owns (c : Thread nD τ) scM0 fullShare (scAt m c n hn).1 ∗ owns (c : Thread nD τ) scM1 fullShare (scAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (scAt m c n hn).1 ∗ owns (c : Thread nD τ) scM1 fullShare (scAt m c n hn).2) ∗ (∃ r, prngReg c r)) := rfl

theorem PhiS_pos (c : Dev nD) (n : ℕ) (h : n ≤ cfg0.N) (hz : n ≠ 0) :
    PhiS m c n h = iprop(iprop(owns (c : Thread nD τ) scM0 fullShare (scAt m c (n - 1) (by omega)).1 ∗ owns (c : Thread nD τ) scM1 fullShare (scAt m c (n - 1) (by omega)).2) ∗ (∃ r, prngReg c r)) := by
  cases n with
  | zero => exact absurd rfl hz
  | succ n => rfl

/-- The class invariant with the scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- The arrays as the region finds them; after the body at point `t` each input's buffer at its block, the sums' output
    buffers at the sums, the proxy's at the held proxy block; windows 0 and 1 at the two halves of their common array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (scAt m c t.val t.isLt).1
    | ⟨6, _⟩ => (scAt m c t.val t.isLt).2
    | ⟨7, _⟩ => proxAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (scAt m c t.val t.isLt).1 := by dsimp only [dats]
theorem after6 (c : Dev nD) (t : Fin cfg0.N) : (dats m 0 c).after 6 t = (scAt m c t.val t.isLt).2 := by dsimp only [dats]
theorem after7 (c : Dev nD) (t : Fin cfg0.N) : (dats m 0 c).after 7 t = proxAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-- What the body left in the proxy's buffer is what the next point finds there (the window is never cut). -/
theorem kept7 (c : Dev nD) (t : Fin cfg0.N) (d) : (dats m 0 c).kept 7 t d = (dats m 0 c).after 7 t := by
  unfold Dat.kept
  rw [Pipeline.fill_of_clip_none (cfg := cfg0) 7 _ (fun _ => rfl) d ((dats m 0 c).after 7 t), Window.fill_cut]

/-- After the row's first point the proxy's staging buffer holds the proxy block of the point before: nothing stores into it
    and it is not written back until the row's last point. -/
theorem before7_later (c : Dev nD) : ∀ (n : ℕ) (hn : n < cfg0.N), ¬ n % 8 = 0 → ∀ d,
    (dats m 0 c).before 7 ⟨n, hn⟩ d = proxAt m c (n - 1) (Nat.lt_of_le_of_lt (Nat.sub_le _ _) hn) := by
  intro n
  induction n using Nat.strong_induction_on with
  | _ n ih =>
    intro hn h0 d
    have hpos : (⟨n, hn⟩ : Fin cfg0.N).val ≠ 0 := fun e => h0 (by rw [show n = 0 from e])
    have hN : n < 64 := lt_of_lt_of_eq hn (show cfg0.N = 64 from N_0)
    rw [(dats m 0 c).before_of_pos 7 ⟨n, hn⟩ hpos ((cfg0.win 7).fetch_out rfl _) d]
    have hfl : (cfg0.win 7).flush ⟨n - 1, Nat.lt_of_le_of_lt (Nat.sub_le _ _) hn⟩ = false := by
      rw [Bool.eq_false_iff]; intro h
      have := (flush0_7 ⟨n - 1, Nat.lt_of_le_of_lt (Nat.sub_le _ _) hn⟩).mp h
      dsimp only at this; omega
    rw [hfl, if_neg Bool.false_ne_true]
    unfold Dat.left
    by_cases h1 : (n - 1) % 8 = 0
    · have hlive : cfg0.idle 7 (cfg0.grid.coords ⟨n - 1, Nat.lt_of_le_of_lt (Nat.sub_le _ _) hn⟩) = false := by
        rw [Bool.eq_false_iff]; intro h
        exact ((idle7 ⟨n - 1, Nat.lt_of_le_of_lt (Nat.sub_le _ _) hn⟩).mp h) h1
      rw [hlive]; dsimp only
      rw [kept7, after7]
    · have hidle : cfg0.idle 7 (cfg0.grid.coords ⟨n - 1, Nat.lt_of_le_of_lt (Nat.sub_le _ _) hn⟩) = true :=
        (idle7 ⟨n - 1, Nat.lt_of_le_of_lt (Nat.sub_le _ _) hn⟩).mpr h1
      rw [hidle]; dsimp only
      rw [ih (n - 1) (by omega) (Nat.lt_of_le_of_lt (Nat.sub_le _ _) hn) h1 d]
      exact (proxAt_later m c ⟨n - 1, Nat.lt_of_le_of_lt (Nat.sub_le _ _) hn⟩ h1).symm

end Cert.Kernel.Hand

end
-- ==== Proof.Bits.Runs.lean ====
/-
  The kernel body at one grid point, in each of the three cases its two conditionals meet on the grid.
  A point (i, j) of the 8 x 8 grid handles rows 1024 i .. 1024 i + 1023 against columns 1024 j .. 1024 j + 1023.
  The body keeps two running row sums in scratch: the sum over the columns seen so far of
  exp (2 <e_r, e_c>) [r ≠ c]  (the total) and of the same terms with the factor [label r = label c] (the positives).
  At j = 0 both are reset to zero before the point's terms are added, and the row's proxy similarity
  exp (2 <e_r, p_r>) is stored into the third output block; at j = 7 the two sums are copied to the first two output blocks.
  Each case is stated on arbitrary whole staging memrefs holding named contents: what the stores leave is named by the
  body's own arithmetic (the skeleton's payloads), so that the value of each buffer after the point is an explicit term.
-/
import proofs.«100202_j1683627180664_1_alg».proof.Proof.Bits.Terms

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, however the zeros are spelt. -/
private theorem zeros2 : (![0, 0] : Fin 2 → Nat) = fun _ => 0 := by funext a; fin_cases a <;> rfl

/-- A store of a whole buffer (the unit rectangle at zero offsets of the buffer's own sizes), made last,
    leaves its payload: the buffer then reads that payload, whatever it held and whatever was stored before. -/
private theorem read_store_whole {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb (v := v) (f := f) (Rect.whole S) w L y
  rw [Rect.emb_whole_apply] at e
  exact e

/-- A load of a whole buffer reads its contents. -/
private theorem load_whole {sp : Space} {S : Shape} {e : EltTy} (m : Memref sig .tc sp S e) (hm : m.IsWhole)
    (X : S.Idx → Elt F e) {off : Fin S.rank → Nat} (h : off = fun _ => 0) (inb : ∀ a, off a + S.size a ≤ S.size a) :
    View.readAt (Elt F) m.view (Rect.unit off S.size inb).toLoadRect (hm.unread X) = X := by
  rw [View.readAt_eq_ld, hm.read_unread]
  subst h; funext x
  show X ((Rect.whole S).emb x) = X x
  rw [Rect.emb_whole_apply]

/-- FIRST COLUMN BLOCK (j = 0, not the last): both sums are reset and take the point's terms, the proxy similarity is stored;
    the first two output blocks are not touched. -/
theorem run_first (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : k0_cond1 i = 1#1) (hc2 : ¬ k0_cond2 i = 1#1)
    (x0 x1 x2 : Vec F S1024x128 .bf16) (x3 : Vec F S1024x1 .i32) (x4 : Vec F S1x1024 .i32) (y5 y6 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare y5 ∗ owns (c : Thread nD τ) arg8 fullShare y6 ∗ owns (c : Thread nD τ) arg9 fullShare (proxVal x0 x2)
            ∗ owns (c : Thread nD τ) arg10 fullShare (posNext i x0 x1 x3 x4 pos0) ∗ owns (c : Thread nD τ) arg11 fullShare (totNext i x0 x1 tot0)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9 arg10 harg10 arg11 harg11) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  -- what each load of a named buffer reads
  have e2 := load_whole (F := F) arg2 harg2 x0 zeros2 inb_S1024x128_S1024x128_0_0
  have e3 := load_whole (F := F) arg3 harg3 x1 zeros2 inb_S1024x128_S1024x128_0_0
  have e4 := load_whole (F := F) arg4 harg4 x2 zeros2 inb_S1024x128_S1024x128_0_0
  have e5 := load_whole (F := F) arg5 harg5 x3 zeros2 inb_S1024x1_S1024x1_0_0
  have e6 := load_whole (F := F) arg6 harg6 x4 zeros2 inb_S1x1024_S1x1024_0_0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · -- the third output block: its one store, of the proxy similarity
    iexists _; isplitr; swap; iexact H7
    ipureintro
    refine (read_store_whole _ _ zeros2 _ _ _).trans ?_
    rfl
  isplitl [H8]
  · -- the positives' sum: reset, read back (the reset value), then stored with the point's terms added
    iexists _; isplitr; swap; iexact H8
    ipureintro
    refine (read_store_whole _ _ zeros2 _ _ _).trans ?_
    sl_unfold_words
    refine (congrArg (k0_pay1 _ _ _) (View.readCov_cons_toLoadRect _ _ _ _)).trans ?_
    rfl
  · -- the total's sum, likewise
    iexists _; isplitr; swap; iexact H9
    ipureintro
    refine (read_store_whole _ _ zeros2 _ _ _).trans ?_
    sl_unfold_words
    refine (congrArg (k0_pay6 i _ _) (View.readCov_cons_toLoadRect _ _ _ _)).trans ?_
    rfl

/-- A MIDDLE COLUMN BLOCK (0 < j < 7): both sums take the point's terms; no output block is touched. -/
theorem run_middle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬ k0_cond1 i = 1#1) (hc2 : ¬ k0_cond2 i = 1#1)
    (x0 x1 x2 : Vec F S1024x128 .bf16) (x3 : Vec F S1024x1 .i32) (x4 : Vec F S1x1024 .i32) (y5 y6 y7 s0 s1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7 ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare y5 ∗ owns (c : Thread nD τ) arg8 fullShare y6 ∗ owns (c : Thread nD τ) arg9 fullShare y7
            ∗ owns (c : Thread nD τ) arg10 fullShare (posNext i x0 x1 x3 x4 s0) ∗ owns (c : Thread nD τ) arg11 fullShare (totNext i x0 x1 s1)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9 arg10 harg10 arg11 harg11) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9
  -- what each load of a named buffer reads
  have e2 := load_whole (F := F) arg2 harg2 x0 zeros2 inb_S1024x128_S1024x128_0_0
  have e3 := load_whole (F := F) arg3 harg3 x1 zeros2 inb_S1024x128_S1024x128_0_0
  have e5 := load_whole (F := F) arg5 harg5 x3 zeros2 inb_S1024x1_S1024x1_0_0
  have e6 := load_whole (F := F) arg6 harg6 x4 zeros2 inb_S1x1024_S1x1024_0_0
  have e10 := load_whole (F := F) arg10 harg10 s0 zeros2 inb_S1024x1_S1024x1_0_0
  have e11 := load_whole (F := F) arg11 harg11 s1 zeros2 inb_S1024x1_S1024x1_0_0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · -- the positives' sum: its one store, of the whole buffer, over what the load before it read
    iexists _; isplitr; swap; iexact H8
    ipureintro
    refine (read_store_whole _ _ zeros2 _ _ _).trans ?_
    rfl
  · -- the total's sum, likewise
    iexists _; isplitr; swap; iexact H9
    ipureintro
    refine (read_store_whole _ _ zeros2 _ _ _).trans ?_
    rfl

/-- THE LAST COLUMN BLOCK (j = 7, not the first): both sums take the point's terms and are copied to the first two output blocks;
    the third is not touched. -/
theorem run_last (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬ k0_cond1 i = 1#1) (hc2 : k0_cond2 i = 1#1)
    (x0 x1 x2 : Vec F S1024x128 .bf16) (x3 : Vec F S1024x1 .i32) (x4 : Vec F S1x1024 .i32) (y7 s0 s1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare y7 ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (posNext i x0 x1 x3 x4 s0) ∗ owns (c : Thread nD τ) arg8 fullShare (totNext i x0 x1 s1) ∗ owns (c : Thread nD τ) arg9 fullShare y7
            ∗ owns (c : Thread nD τ) arg10 fullShare (posNext i x0 x1 x3 x4 s0) ∗ owns (c : Thread nD τ) arg11 fullShare (totNext i x0 x1 s1)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9 arg10 harg10 arg11 harg11) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hf7; obtain rfl := harg10.eq_unread hf8
  obtain rfl := harg11.eq_unread hf9
  -- what each load of a named buffer reads
  have e2 := load_whole (F := F) arg2 harg2 x0 zeros2 inb_S1024x128_S1024x128_0_0
  have e3 := load_whole (F := F) arg3 harg3 x1 zeros2 inb_S1024x128_S1024x128_0_0
  have e5 := load_whole (F := F) arg5 harg5 x3 zeros2 inb_S1024x1_S1024x1_0_0
  have e6 := load_whole (F := F) arg6 harg6 x4 zeros2 inb_S1x1024_S1x1024_0_0
  have e10 := load_whole (F := F) arg10 harg10 s0 zeros2 inb_S1024x1_S1024x1_0_0
  have e11 := load_whole (F := F) arg11 harg11 s1 zeros2 inb_S1024x1_S1024x1_0_0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · -- the first output block: one store, of what the load just before it read of the positives' sum, itself just stored
    iexists _; isplitr; swap; iexact H5
    ipureintro
    refine (read_store_whole _ _ zeros2 _ _ _).trans ?_
    sl_unfold_words
    refine (View.readCov_cons_toLoadRect _ _ _ _).trans ?_
    rfl
  isplitl [H6]
  · -- the second output block: likewise of the total's sum
    iexists _; isplitr; swap; iexact H6
    ipureintro
    refine (read_store_whole _ _ zeros2 _ _ _).trans ?_
    sl_unfold_words
    refine (View.readCov_cons_toLoadRect _ _ _ _).trans ?_
    rfl
  isplitl [H7]
  · iexists _; isplitr; · ipureintro; exact harg9.read_unread _
    iexact H7
  isplitl [H8]
  · iexists _; isplitr; swap; iexact H8
    ipureintro
    refine (read_store_whole _ _ zeros2 _ _ _).trans ?_
    rfl
  · iexists _; isplitr; swap; iexact H9
    ipureintro
    refine (read_store_whole _ _ zeros2 _ _ _).trans ?_
    rfl

end Cert.Kernel.Hand

end
-- ==== Proof.Bits.Obligation.lean ====
/-
  The body obligation: at every grid point the kernel body, called on the point's staging buffers holding what the
  pipeline's schedule puts there, runs to the next point's invariant and leaves each buffer at what the proof data says.
  Three cases by the column block j = t % 8: the first (reset, proxy store), a middle one, the last (copy-out).
-/
import proofs.«100202_j1683627180664_1_alg».proof.Proof.Bits.Data
import proofs.«100202_j1683627180664_1_alg».proof.Proof.Bits.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body, and its wholeness. -/
abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1 .f32 := win0_7.stage (cfg0.slots t 7)
abbrev hs7 (t : Fin cfg0.N) : (ms7 t).IsWhole := hstage0_7 ((cfg0.slots t 7).cast nbuf0_7)

theorem noflush5 (t : Fin cfg0.N) (h : t.val % 8 ≠ 7) : (cfg0.win 5).flush t = false := by
  rw [Bool.eq_false_iff]; intro hf; exact h ((flush0_5 t).mp hf)
theorem noflush6 (t : Fin cfg0.N) (h : t.val % 8 ≠ 7) : (cfg0.win 6).flush t = false := by
  rw [Bool.eq_false_iff]; intro hf; exact h ((flush0_6 t).mp hf)
theorem noflush7 (t : Fin cfg0.N) (h : t.val % 8 ≠ 7) : (cfg0.win 7).flush t = false := by
  rw [Bool.eq_false_iff]; intro hf; exact h ((flush0_7 t).mp hf)
theorem live5 (t : Fin cfg0.N) (h : t.val % 8 = 7) : cfg0.idle 5 (cfg0.grid.coords t) = false := by
  rw [Bool.eq_false_iff]; intro hi; exact ((idle5 t).mp hi) h
theorem live6 (t : Fin cfg0.N) (h : t.val % 8 = 7) : cfg0.idle 6 (cfg0.grid.coords t) = false := by
  rw [Bool.eq_false_iff]; intro hi; exact ((idle6 t).mp hi) h
theorem live7 (t : Fin cfg0.N) (h : t.val % 8 = 0) : cfg0.idle 7 (cfg0.grid.coords t) = false := by
  rw [Bool.eq_false_iff]; intro hi; exact ((idle7 t).mp hi) h

/-- An input's buffer is handed back holding its block. -/
theorem leaves_in0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl]; dsimp only; rw [after0]
theorem leaves_in1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl]; dsimp only; rw [after1]
theorem leaves_in2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl]; dsimp only; rw [after2]
theorem leaves_in3 (c : Dev nD) (t : Fin cfg0.N) :
    (dats m 0 c).leavesExact 3 t = owns (c : Thread nD τ) (ms3 t) fullShare (iblk m c 3 t) := by
  unfold Dat.leavesExact; rw [show cfg0.idle 3 (cfg0.grid.coords t) = false from rfl]; dsimp only; rw [after3]
theorem leaves_in4 (c : Dev nD) (t : Fin cfg0.N) :
    (dats m 0 c).leavesExact 4 t = owns (c : Thread nD τ) (ms4 t) fullShare (iblk m c 4 t) := by
  unfold Dat.leavesExact; rw [show cfg0.idle 4 (cfg0.grid.coords t) = false from rfl]; dsimp only; rw [after4]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; the column block j = t % 8 says which case the point is in;
    the invariant hands over the two sums at what the point before left (anything at a row's first point) and takes them
    back at this point's; an output the case does not store into is handed back as found, and at the last column block the
    proxy's buffer, untouched since the row's first point, is what is written back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 64 := lt_of_lt_of_eq t.isLt (show cfg0.N = 64 from N_0)
  by_cases h0 : t.val % 8 = 0
  · -- the row's first point
    have h7 : t.val % 8 ≠ 7 := by omega
    rw [Dat.leavesExact_idle (dats m 0 c) 5 t ((idle5 t).mpr h7) (noflush5 t h7),
      Dat.leavesExact_idle (dats m 0 c) 6 t ((idle6 t).mpr h7) (noflush6 t h7)]
    rw [show (dats m 0 c).leavesExact 7 t = owns (c : Thread nD τ) (ms7 t) fullShare ((dats m 0 c).after 7 t) from by
      unfold Dat.leavesExact; rw [live7 t h0], after7, proxAt_first m c t h0]
    rw [scAt_first m c t h0]; unfold step; dsimp only
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ _ _ ((hcond1 t).mpr h0) (fun h => h7 ((hcond2 t).mp h))
        (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexact H7
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ _ _ ((hcond1 t).mpr h0) (fun h => h7 ((hcond2 t).mp h))
        (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexists _; iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexact H7
  · have hz : t.val ≠ 0 := fun e => h0 (by rw [e])
    rw [PhiS_castSucc m c t, PhiS_pos m c _ _ hz]
    rw [scAt_later m c t h0]; unfold step; dsimp only
    by_cases h7 : t.val % 8 = 7
    · -- the row's last point
      rw [show (dats m 0 c).leavesExact 5 t = owns (c : Thread nD τ) (ms5 t) fullShare ((dats m 0 c).after 5 t) from by
        unfold Dat.leavesExact; rw [live5 t h7], after5, scAt_later m c t h0]
      rw [show (dats m 0 c).leavesExact 6 t = owns (c : Thread nD τ) (ms6 t) fullShare ((dats m 0 c).after 6 t) from by
        unfold Dat.leavesExact; rw [live6 t h7], after6, scAt_later m c t h0]
      rw [show (dats m 0 c).leavesExact 7 t = owns (c : Thread nD τ) (ms7 t) fullShare ((dats m 0 c).after 7 t) from by
        unfold Dat.leavesExact; rw [(idle7 t).mpr h0, (flush0_7 t).mpr h7], after7, proxAt_later m c t h0]
      unfold step; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      rw [before7_later m c t.val t.isLt h0 d7]
      iapply (run_last c (grid0.coords t) _ _ _ _ _ _ _ _ _ _ _ _ _ _ _ _ _ _ _ _ (fun h => h0 ((hcond1 t).mp h)) ((hcond2 t).mpr h7)
        (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point
      rw [Dat.leavesExact_idle (dats m 0 c) 5 t ((idle5 t).mpr h7) (noflush5 t h7),
        Dat.leavesExact_idle (dats m 0 c) 6 t ((idle6 t).mpr h7) (noflush6 t h7),
        Dat.leavesExact_idle (dats m 0 c) 7 t ((idle7 t).mpr h0) (noflush7 t h7)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_middle c (grid0.coords t) _ _ _ _ _ _ _ _ _ _ _ _ _ _ _ _ _ _ _ _ (fun h => h0 ((hcond1 t).mp h)) (fun h => h7 ((hcond2 t).mp h))
        (iblk m c 0 t) (iblk m c 1 t) (iblk m c 2 t) (iblk m c 3 t) (iblk m c 4 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexists _; iexact H7

/-- The body obligation, at every point. -/
theorem body_obligation (c : Dev nD) : BodyObligation (dats (F := F) m 0 c) (defs₀ (F := F)) Variants.none () Set.univ := fun t => by
  rw [bigSep_W0, bigSep_W0]
  exact sound_body m c t
/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the sums' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.Bits.Launch.lean ====
/-
  The launch: @main is the host operations that normalize the two inputs and reshape the labels, the kernel region, and the
  host operations that turn the three row vectors into the loss. Windows 0 and 1 of the region both read the normalized
  embedding: the array's full share is split in two halves at the region's entry, one per window, and the halves are
  joined again at its exit, before the later host operations run. The run's post names every array of the pipeline after
  the last write-back and every other buffer after the later host operations.
-/
import proofs.«100202_j1683627180664_1_alg».proof.Proof.Bits.Obligation

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region allocate nothing. -/
theorem hostOps0_fresh : (hostOps0 : List (HloOp τ sig (Elt F))).Forall fun op => op.fresh = ∅ := by
  simp only [List.Forall]; repeat' constructor

/-- Nor do the ones after it. -/
theorem hostOps1_fresh : (hostOps1 : List (HloOp τ sig (Elt F))).Forall fun op => op.fresh = ∅ := by
  simp only [List.Forall]; repeat' constructor

/-- @main reduces to the region continued by the later host operations, entered at the contents the earlier ones leave. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## What the host operations write -/

/-- An operation whose one result is listed writes within the list. -/
theorem writes_sub_of {W : List (Ref sig .tc)} {y : Ref sig .tc} {op : HloOp τ sig (Elt F)}
    (h : op.writes = {Proc.devRef .tc y}) (hy : y ∈ W) : op.writes ⊆ (W.map (Proc.devRef (τ := τ) .tc)).toFinset := by
  rw [h, Finset.singleton_subset_iff, List.mem_toFinset]; exact List.mem_map.mpr ⟨y, hy, rfl⟩

/-- The results of the host operations before the region, in order. -/
abbrev res0 : List (Ref sig .tc) :=
  [main_v0, main_cst, main_v1, main_v2, main_v3, main_cst_0, main_v4, main_v5, main_v6, main_v7, main_v8, main_cst_1, main_v9, main_v10, main_v11, main_cst_2, main_v12, main_v13, main_v14, main_v15, main_v16, main_v17, main_v18, main_v19]
/-- The results of the host operations after the region, in order. -/
abbrev res1 : List (Ref sig .tc) :=
  [main_v21, main_v22, main_v23, main_v24, main_v25, main_v26, main_v27, main_cst_3, main_v28, main_cst_4, main_v29, main_v30]

/-- Each host operation before the region writes its own result only. -/
theorem hostOps0_writes : (hostOps0 : List (HloOp τ sig (Elt F))).Forall fun op => op.writes ⊆ (res0.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩
/-- And so does each one after it. -/
theorem hostOps1_writes : (hostOps1 : List (HloOp τ sig (Elt F))).Forall fun op => op.writes ⊆ (res1.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer that is no result of an earlier host operation enters the region as @main found it. -/
theorem V_of_not_res0 (c : Dev nD) (b : Ref sig .tc) (hb : b ∉ res0) : V m c b = m ((c : Thread nD τ).loc b) :=
  StableHlo.after_of_writes_sub _ _ hostOps0_writes hb

/-- A buffer that is no array of the pipeline and no result of a later host operation ends as it entered the region. -/
theorem afterTail_of_not_res1 (c : Dev nD) (b : Ref sig .tc) (hb : b ∉ res1) (ha : ∀ w, Pipeline.arrRef spec0 w ≠ b) :
    Pipeline.afterTail₀ cfgs (dats m) 0 (V0 m) [hostOps1] c b = V m c b := by
  unfold Pipeline.afterTail₀
  exact (StableHlo.after_of_writes_sub (W := res1) ([hostOps1].flatten) _ hostOps1_writes hb).trans
    (Pipeline.withArrays_of_ne _ c (V0 m c) _ b ha)

/-! ## The arrays and the buffers behind them -/

/-- The distinct buffers behind the eight windows' arrays: seven, the normalized embedding behind windows 0 and 1. -/
theorem arr_image : Finset.univ.image (Pipeline.arrRef spec0)
    = ([main_v16, main_v17, main_v18, main_v19, main_v20_0, main_v20_1, main_v20_2] : List (Ref sig .tc)).toFinset := by decide

/-- Those seven buffers, whole, one by one. -/
theorem arrBufs_eq (c : Dev nD) (W : (b : Ref sig .tc) → Buf (Elt F) ((c : Thread nD τ).loc b)) :
    (Pipeline.arrBufs spec0 c W : sProp 𝕄)
      = iprop((((c : Thread nD τ).loc main_v16) ↦{fullShare} W main_v16) ∗ (((c : Thread nD τ).loc main_v17) ↦{fullShare} W main_v17)
          ∗ (((c : Thread nD τ).loc main_v18) ↦{fullShare} W main_v18) ∗ (((c : Thread nD τ).loc main_v19) ↦{fullShare} W main_v19)
          ∗ (((c : Thread nD τ).loc main_v20_0) ↦{fullShare} W main_v20_0) ∗ (((c : Thread nD τ).loc main_v20_1) ↦{fullShare} W main_v20_1)
          ∗ (((c : Thread nD τ).loc main_v20_2) ↦{fullShare} W main_v20_2)) := by
  unfold Pipeline.arrBufs
  exact bigSep_eq_bigSepL_of_eq _ arr_image (by decide) _

/-- The eight windows' arrays at any contents, one by one: the normalized embedding at its two halves, the rest whole. -/
theorem arrays_eq (c : Dev nD) (A : (w : Fin cfg0.W) → Buf (Elt F) ((cfg0.win w).arr.view.loc (c : Thread nD τ))) :
    ((dats m 0 c).arrays A : sProp 𝕄)
      = iprop((((c : Thread nD τ).loc main_v16) ↦{fullShare.left} A 0) ∗ (((c : Thread nD τ).loc main_v16) ↦{fullShare.right} A 1)
          ∗ (((c : Thread nD τ).loc main_v17) ↦{fullShare} A 2)
          ∗ (((c : Thread nD τ).loc main_v18) ↦{fullShare} A 3) ∗ (((c : Thread nD τ).loc main_v19) ↦{fullShare} A 4)
          ∗ (((c : Thread nD τ).loc main_v20_0) ↦{fullShare} A 5) ∗ (((c : Thread nD τ).loc main_v20_1) ↦{fullShare} A 6)
          ∗ (((c : Thread nD τ).loc main_v20_2) ↦{fullShare} A 7)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- The seven buffers whole are the eight windows' arrays at the same contents: the normalized embedding's full share
    splits into the halves of windows 0 and 1. -/
theorem arrays_of_bufs (c : Dev nD) (W : (b : Ref sig .tc) → Buf (Elt F) ((c : Thread nD τ).loc b))
    (A : (w : Fin cfg0.W) → Buf (Elt F) ((cfg0.win w).arr.view.loc (c : Thread nD τ)))
    (h0 : A 0 = W main_v16) (h1 : A 1 = W main_v16) (h2 : A 2 = W main_v17) (h3 : A 3 = W main_v18) (h4 : A 4 = W main_v19)
    (h5 : A 5 = W main_v20_0) (h6 : A 6 = W main_v20_1) (h7 : A 7 = W main_v20_2) :
    (Pipeline.arrBufs spec0 c W : sProp 𝕄) ⊢ (dats m 0 c).arrays A := by
  rw [arrBufs_eq, arrays_eq, h0, h1, h2, h3, h4, h5, h6, h7]
  iintro ⟨H16, H17, H18, H19, H0, H1, H2⟩
  icases (pointsTo_share (PosShare.mem_left_op_right fullShare)).1 $$ H16 with ⟨Hl, Hr⟩
  isplitl [Hl]; · iexact Hl
  isplitl [Hr]; · iexact Hr
  isplitl [H17]; · iexact H17
  isplitl [H18]; · iexact H18
  isplitl [H19]; · iexact H19
  isplitl [H0]; · iexact H0
  isplitl [H1]; · iexact H1
  iexact H2

/-- And back: the two halves join into the normalized embedding's full share. -/
theorem bufs_of_arrays (c : Dev nD) (W : (b : Ref sig .tc) → Buf (Elt F) ((c : Thread nD τ).loc b))
    (A : (w : Fin cfg0.W) → Buf (Elt F) ((cfg0.win w).arr.view.loc (c : Thread nD τ)))
    (h0 : A 0 = W main_v16) (h1 : A 1 = W main_v16) (h2 : A 2 = W main_v17) (h3 : A 3 = W main_v18) (h4 : A 4 = W main_v19)
    (h5 : A 5 = W main_v20_0) (h6 : A 6 = W main_v20_1) (h7 : A 7 = W main_v20_2) :
    (dats m 0 c).arrays A ⊢ (Pipeline.arrBufs spec0 c W : sProp 𝕄) := by
  rw [arrBufs_eq, arrays_eq, h0, h1, h2, h3, h4, h5, h6, h7]
  iintro ⟨Hl, Hr, H17, H18, H19, H0, H1, H2⟩
  isplitl [Hl Hr]
  · iapply (pointsTo_share (PosShare.mem_left_op_right fullShare)).2
    isplitl [Hl]; · iexact Hl
    iexact Hr
  isplitl [H17]; · iexact H17
  isplitl [H18]; · iexact H18
  isplitl [H19]; · iexact H19
  isplitl [H0]; · iexact H0
  isplitl [H1]; · iexact H1
  iexact H2

/-- At the region's entry the seven buffers behind the eight windows are dealt to the windows: the normalized embedding
    in two halves, every other buffer whole. -/
theorem hsplit (c : Dev nD) :
    (Pipeline.arrBufs spec0 c (V m c) : sProp 𝕄) ⊢ (dats m 0 c).arrays ((dats m 0 c).arrAt · 0) :=
  arrays_of_bufs m c (V m c) _ (A_eq m c 0) (A_eq m c 1) (A_eq m c 2) (A_eq m c 3) (A_eq m c 4) (A_eq m c 5) (A_eq m c 6) (A_eq m c 7)

/-! ## The later host operations -/

/-- The arrays at the region's exit: after the last write-back. -/
abbrev exitA (c : Dev nD) : (w : Fin cfg0.W) → Buf (Elt F) ((cfg0.win w).arr.view.loc (c : Thread nD τ)) :=
  fun w => (dats m 0 c).arrAt w cfg0.N

/-- The buffers' contents at the region's exit: the arrays after the last write-back, every other buffer as at the entry. -/
abbrev exitW (c : Dev nD) : Valuation τ sig (Elt F) := Pipeline.withArrays spec0 c (V0 m c) (exitA m c)

/-- Windows 0 and 1 are inputs: their array is never written back, and ends as the region found it. -/
theorem exitA_0 (c : Dev nD) : exitA m c 0 = V m c main_v16 := ((dats m 0 c).arrAt_in 0 rfl _).trans (A_eq m c 0)
theorem exitA_1 (c : Dev nD) : exitA m c 1 = V m c main_v16 := ((dats m 0 c).arrAt_in 1 rfl _).trans (A_eq m c 1)

/-- Two windows on one buffer are the same window, or they are windows 0 and 1. -/
theorem arrRef_eq : ∀ w w' : Fin 8, Pipeline.arrRef spec0 w' = Pipeline.arrRef spec0 w → w' = w ∨ (w' = 1 ∧ w = 0) ∨ (w' = 0 ∧ w = 1) := by
  decide

/-- Contents that name each array by a window read back at a window's array as that window's, whichever window on the
    buffer is chosen, when windows 0 and 1 agree. -/
theorem withArrays_arr (c : Dev nD) (W : Valuation τ sig (Elt F))
    (A : (w : Fin cfg0.W) → Buf (Elt F) ((cfg0.win w).arr.view.loc (c : Thread nD τ))) (h01 : A 1 = A 0) (w : Fin 8) :
    Pipeline.withArrays spec0 c W A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 8) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  rcases arrRef_eq w w' (Proc.devRef_injective _ e) with rfl | ⟨rfl, rfl⟩ | ⟨rfl, rfl⟩
  · rfl
  · exact h01
  · exact h01.symm

/-- The unscoped buffers held at one valuation are the buffers behind the arrays and the bypassing buffers at it. -/
theorem held_eq (c : Dev nD) (W : Valuation τ sig (Elt F)) :
    (StableHlo.held (c : Thread nD τ) (Pipeline.ucRefs τ sig) W : sProp 𝕄)
      = iprop((Pipeline.arrBufs spec0 c (fun b => W (Proc.devRef .tc b)) : sProp 𝕄)
          ∗ Pipeline.unscopedRest spec0 c (fun b => W (Proc.devRef .tc b))) :=
  (Pipeline.unscopedBufs_held (Ix := Unit) (Name := ℕ) (U := UR sig nD τ) (Lvl := ℕ) c W).symm.trans
    (Pipeline.unscopedBufs_split₀ cfgs 0 winFacts₀0.arr_unscoped c _)

/-- At the region's exit the arrays and the bypassing buffers are every unscoped buffer, whole, at the exit contents. -/
theorem exit_held (c : Dev nD) :
    iprop((dats m 0 c).arrays (exitA m c) ∗ Pipeline.unscopedRest spec0 c (V m c))
      ⊢ (StableHlo.held (c : Thread nD τ) (Pipeline.ucRefs τ sig) (exitW m c) : sProp 𝕄) := by
  have h01 : exitA m c 1 = exitA m c 0 := (exitA_1 m c).trans (exitA_0 m c).symm
  rw [held_eq]
  iintro ⟨HA, HR⟩
  isplitl [HA]
  · iapply (bufs_of_arrays m c (fun b => exitW m c (Proc.devRef .tc b)) (exitA m c)
      (withArrays_arr c _ _ h01 0).symm (withArrays_arr c _ _ h01 1).symm (withArrays_arr c _ _ h01 2).symm
      (withArrays_arr c _ _ h01 3).symm (withArrays_arr c _ _ h01 4).symm (withArrays_arr c _ _ h01 5).symm
      (withArrays_arr c _ _ h01 6).symm (withArrays_arr c _ _ h01 7).symm)
    iexact HA
  · iapply (show (Pipeline.unscopedRest spec0 c (V m c) : sProp 𝕄) ⊢ Pipeline.unscopedRest spec0 c (fun b => exitW m c (Proc.devRef .tc b)) from by
      unfold Pipeline.unscopedRest
      exact Entails.of_eq (bigSep_congr fun b hb =>
        congrArg (fun f => (((c : Thread nD τ).loc b) ↦{fullShare} f : sProp 𝕄))
          (Pipeline.withArrays_of_ne spec0 c (V0 m c) (exitA m c) b fun w e =>
            (Finset.mem_sdiff.mp hb).2 (Finset.mem_image.mpr ⟨w, Finset.mem_univ _, e⟩)).symm))
    iexact HR

/-- After the later host operations every unscoped buffer, whole, is the arrays as they were at the exit — no operation
    writes one — and the bypassing buffers at what the operations leave. -/
theorem held_exit (c : Dev nD) :
    (StableHlo.held (c : Thread nD τ) (Pipeline.ucRefs τ sig) (StableHlo.after ([hostOps1].flatten) (exitW m c)) : sProp 𝕄)
      ⊢ iprop((dats m 0 c).arrays (exitA m c)
          ∗ Pipeline.unscopedRest spec0 c (Pipeline.afterTail₀ cfgs (dats m) 0 (V0 m) [hostOps1] c)) := by
  have h01 : exitA m c 1 = exitA m c 0 := (exitA_1 m c).trans (exitA_0 m c).symm
  have hk : ∀ w : Fin 8, Pipeline.arrRef spec0 w ∉ res1 → exitA m c w
      = StableHlo.after ([hostOps1].flatten) (exitW m c) (Proc.devRef .tc (Pipeline.arrRef spec0 w)) := fun w hw =>
    ((StableHlo.after_of_writes_sub (W := res1) ([hostOps1].flatten) _ hostOps1_writes hw).trans (withArrays_arr c _ _ h01 w)).symm
  rw [held_eq]
  iintro ⟨HA, HR⟩
  isplitl [HA]
  · iapply (arrays_of_bufs m c (fun b => StableHlo.after ([hostOps1].flatten) (exitW m c) (Proc.devRef .tc b)) (exitA m c)
      (hk 0 (by decide)) (hk 1 (by decide)) (hk 2 (by decide)) (hk 3 (by decide)) (hk 4 (by decide)) (hk 5 (by decide))
      (hk 6 (by decide)) (hk 7 (by decide)))
    iexact HA
  · unfold Pipeline.afterTail₀
    iexact HR

/-- From the region's exit the later host operations run within the arrays and the bypassing buffers, and hand the arrays
    back as they were. -/
theorem htail (c : Dev nD) (Q' : PUnit → sProp 𝕄) :
    iprop((iprop((dats m 0 c).arrays ((dats m 0 c).arrAt · cfg0.N)
              ∗ Pipeline.unscopedRest spec0 c (Pipeline.afterTail₀ cfgs (dats m) 0 (V0 m) [hostOps1] c)) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  have hsub : ∀ ops ∈ ([hostOps1] : List (List (HloOp τ sig (Elt F)))), ∀ op ∈ ops, op.bufs ⊆ Pipeline.ucRefs τ sig := by
    intro ops hops op hop
    obtain rfl := List.mem_singleton.mp hops
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    obtain rfl := List.mem_singleton.mp hops
    exact (List.forall_iff_forall_mem.mp hostOps1_fresh) op hop
  show _ ⊢ wp frame _ Set.univ (Pipeline.chain (([hostOps1] : List (List (HloOp τ sig (Elt F)))).map StableHlo.seq ++ [])) Q'
  iintro ⟨Hk, Hb, HA, HR⟩
  iapply (Pipeline.wp_seqs_then (fun q => (cfgs q).toPCfg (Val := Elt F)) defs₀ Variants.none c (Pipeline.ucRefs τ sig) [] [hostOps1]
    hsub hfresh (exitW m c)) $$ [Hb HA HR]
  · isplitl [Hb]; · iexact Hb
    iapply (exit_held m c)
    isplitl [HA]; · iexact HA
    iexact HR
  iintro Hb
  rw [Pipeline.chain_nil, wp_pure]
  imodintro
  iapply Hk
  icases Hb with ⟨-, H⟩
  iapply (held_exit m c)
  iexact H

set_option backward.isDefEq.respectTransparency.types false in
/-- Every weakly fair execution of @main terminates, each array of the pipeline ends at what the proof data computes
    after the last write-back, and every other unscoped buffer at what the later host operations leave. -/
theorem run_main : θ_run defs (onTc (τ := τ) (main (F := F))) (s₀ m ρ)
    (Pipeline.FramePost cfgs (dats m) 0 (Pipeline.afterTail₀ cfgs (dats m) 0 (V0 m) [hostOps1])) := by
  classical
  exact Pipeline.θ_run_region_pf_tail (fun q => (cfgs q).toPCfg (Val := Elt F)) (fun q => (cfgs q).toPCfg_adm) (dats m) ()
    cellOf_inj (0 : Fin 1) winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (Pipeline.afterTail₀ cfgs (dats m) 0 (V0 m) [hostOps1] c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefs sig spec0,
      s.mem ((c : Thread nD τ).loc b) = Pipeline.afterTail₀ cfgs (dats m) 0 (V0 m) [hostOps1] c b)
    (hY := fun c s' => by
      iintro ⟨-, HU, HSI⟩
      unfold Pipeline.unscopedRest
      imodintro
      iapply (pointsTo_read_all (Pipeline.restRefs sig spec0) (fun b => (c : Thread nD τ).loc b)
        (Pipeline.afterTail₀ cfgs (dats m) 0 (V0 m) [hostOps1] c) s')
      isplitl [HU] <;> iassumption)
    (hQ := fun s h c => ⟨(h c).1, (h c).2.2⟩)

/-! ## The frame -/

/-- @main's three arguments and its result bypass the region: unscoped buffers that are no window's array. -/
theorem mem_rest_arg0 : main_arg0 ∈ Pipeline.restRefs sig spec0 := Pipeline.mem_restRefs_of _ rfl (by decide)
theorem mem_rest_arg1 : main_arg1 ∈ Pipeline.restRefs sig spec0 := Pipeline.mem_restRefs_of _ rfl (by decide)
theorem mem_rest_arg2 : main_arg2 ∈ Pipeline.restRefs sig spec0 := Pipeline.mem_restRefs_of _ rfl (by decide)
theorem mem_rest_v30 : main_v30 ∈ Pipeline.restRefs sig spec0 := Pipeline.mem_restRefs_of _ rfl (by decide)

/-- No host operation writes an argument: after the later operations each is as @main found it. -/
theorem tail_arg0 (c : Dev nD) :
    Pipeline.afterTail₀ cfgs (dats m) 0 (V0 m) [hostOps1] c main_arg0 = m ((c.tc : Thread nD τ).loc main_arg0) :=
  (afterTail_of_not_res1 m c main_arg0 (by decide) (by decide)).trans (V_of_not_res0 m c main_arg0 (by decide))
theorem tail_arg1 (c : Dev nD) :
    Pipeline.afterTail₀ cfgs (dats m) 0 (V0 m) [hostOps1] c main_arg1 = m ((c.tc : Thread nD τ).loc main_arg1) :=
  (afterTail_of_not_res1 m c main_arg1 (by decide) (by decide)).trans (V_of_not_res0 m c main_arg1 (by decide))
theorem tail_arg2 (c : Dev nD) :
    Pipeline.afterTail₀ cfgs (dats m) 0 (V0 m) [hostOps1] c main_arg2 = m ((c.tc : Thread nD τ).loc main_arg2) :=
  (afterTail_of_not_res1 m c main_arg2 (by decide) (by decide)).trans (V_of_not_res0 m c main_arg2 (by decide))

/-- The frame: @main runs to the end and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have hr := (h c).2
  exact ⟨(hr main_arg0 mem_rest_arg0).trans (tail_arg0 m c), (hr main_arg1 mem_rest_arg1).trans (tail_arg1 m c),
    (hr main_arg2 mem_rest_arg2).trans (tail_arg2 m c)⟩

end Cert.Kernel.Hand

end
-- ==== Proof.Value.Spec.lean ====
/-
  What both programs compute, on the extended reals.
  With e the row-normalized embedding, p the row-normalized proxy (8192 rows of 128) and lab the labels:
    sim n c  = exp (<e_n, e_c> / (1/2))                          the pairwise similarity
    tot n    = sum over c of sim n c * [n ≠ c]
    pos n    = sum over c of (sim n c * [n ≠ c]) * [lab n = lab c]
    prox n   = exp (<e_n, p_n> / (1/2))
    loss     = - (sum over n of log ((prox n + pos n) / (prox n + tot n))) / 8192
  The kernel meets these sums block by block: rows 1024 I .. 1024 I + 1023 against columns 1024 J .. 1024 J + 1023 at grid
  point (I, J), the eight column blocks of a row block added up one after the other. Nothing below needs a finite input:
  the only laws used are x * 0 = 0, x * 1 = x and the regrouping of finite sums, which hold on all extended reals.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The temperature 1/2, as the float literal both programs divide by. -/
def half : EReal := Ideal.ofBits .f32 0x3F000000#32
/-- The row count 8192, as the float literal both programs divide the sum by. -/
def count : EReal := Ideal.ofBits .f32 0x46000000#32

/-- An array of 8192 rows of 128 read by row and column; a vector of 8192 read by row. -/
def rows2 {α : Type} (f : (⟨2, ![8192, 128]⟩ : Shape).Idx → α) : Fin 8192 → Fin 128 → α := fun n k => f (ix2 n k)
def rows1 {α : Type} (f : (⟨1, ![8192]⟩ : Shape).Idx → α) : Fin 8192 → α := fun n => f (ix1 n)
/-- A block of 1024 rows of 128 read by row and column. -/
def blk2 {α : Type} (f : (⟨2, ![1024, 128]⟩ : Shape).Idx → α) : Fin 1024 → Fin 128 → α := fun r k => f (ix2 r k)

/-- exp (<a, b> / (1/2)) of two rows of 128. -/
def simRow (a b : Fin 128 → EReal) : EReal := Ideal.exp (Ideal.div (∑ k : Fin 128, a k * b k) half)

/-! ## The whole arrays -/

def sim (e : Fin 8192 → Fin 128 → EReal) (n c : Fin 8192) : EReal := simRow (e n) (e c)
def off (n c : Fin 8192) : EReal := if n = c then 0 else 1
def same (lab : Fin 8192 → BitVec 32) (n c : Fin 8192) : EReal := if lab n = lab c then 1 else 0
def tot (e : Fin 8192 → Fin 128 → EReal) (n : Fin 8192) : EReal := ∑ c : Fin 8192, sim e n c * off n c
def pos (e : Fin 8192 → Fin 128 → EReal) (lab : Fin 8192 → BitVec 32) (n : Fin 8192) : EReal :=
  ∑ c : Fin 8192, (sim e n c * off n c) * same lab n c
def prox (e p : Fin 8192 → Fin 128 → EReal) (n : Fin 8192) : EReal := simRow (e n) (p n)
def loss (posv totv proxv : Fin 8192 → EReal) : EReal :=
  - Ideal.div (∑ n : Fin 8192, Ideal.log (Ideal.div (proxv n + posv n) (proxv n + totv n))) count

/-! ## One grid point's block -/

/-- [row 1024 I + r ≠ column 1024 J + c]. -/
def offB (I J : ℕ) (r c : Fin 1024) : EReal := if 1024 * I + r.val = 1024 * J + c.val then 0 else 1
/-- [label of row r = label of column c], the labels given per block. -/
def sameB (lr lc : Fin 1024 → BitVec 32) (r c : Fin 1024) : EReal := if lr r = lc c then 1 else 0
/-- The point's contribution to a row's total, and to its positives. -/
def totB (a b : Fin 1024 → Fin 128 → EReal) (I J : ℕ) (r : Fin 1024) : EReal :=
  ∑ c : Fin 1024, simRow (a r) (b c) * offB I J r c
def posB (a b : Fin 1024 → Fin 128 → EReal) (lr lc : Fin 1024 → BitVec 32) (I J : ℕ) (r : Fin 1024) : EReal :=
  ∑ c : Fin 1024, (simRow (a r) (b c) * offB I J r c) * sameB lr lc r c

/-- Row r of row block I, and column c of column block J, as rows of the whole array. -/
def rowOf (I : Fin 8) (r : Fin 1024) : Fin 8192 := ⟨1024 * I.val + r.val, by omega⟩

/-- THE REGROUPING: a sum over the 8192 columns is the sum over the 8 column blocks of the sums over their 1024 columns. -/
theorem sum_blocks (f : Fin 8192 → EReal) : ∑ c : Fin 8192, f c = ∑ J : Fin 8, ∑ c : Fin 1024, f (rowOf J c) := by
  -- the pairs (J, c) are the columns c + 1024 J: sum over the pairs, then re-index along that bijection
  rw [← Fintype.sum_prod_type (f := fun p : Fin 8 × Fin 1024 => f (rowOf p.1 p.2))]
  refine (Fintype.sum_equiv (finProdFinEquiv : Fin 8 × Fin 1024 ≃ Fin (8 * 1024)) _ _ (fun p => ?_)).symm
  exact congrArg f (Fin.ext (Nat.add_comm _ _))

end Cert.Spec

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Value.Blocks.lean ====
/-
  The kernel body's stored values at one grid point, read at a row, on the extended reals: the total's update adds the
  row's sum over the point's 1024 columns of exp (<e_r, e_c> / (1/2)) [r ≠ c], the positives' update the same terms with
  the factor [label r = label c], and the proxy block is exp (<e_r, p_r> / (1/2)). The matrix product into a zero
  accumulator is the plain sum over the 128 contracted entries; the lane reduction is the plain sum over the 1024 columns;
  a one-bit comparison widened and converted is 0 or 1.
-/
import proofs.«100202_j1683627180664_1_alg».proof.Proof.Value.Spec
import proofs.«100202_j1683627180664_1_alg».proof.Proof.Ideal.Terms
import proofs.«100202_j1683627180664_1_alg».proof.Proof.LibColumn
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! ## The reset values -/

/-- A broadcast zero through an identity cast is zero at every entry. -/
theorem pos0_apply (y : S1024x1.Idx) : pos0 (F := Ideal) y = 0 :=
  (congrFun (shapeCast_self (broadcast S1024x1 (Scalar.ofBits (F := Ideal) .f32 0x00000000#32)) shapeCasts_S1024x1_S1024x1) y).trans
    Ideal.ofBits_zero_f32

theorem tot0_apply (y : S1024x1.Idx) : tot0 (F := Ideal) y = 0 :=
  (congrFun (shapeCast_self (broadcast S1024x1 (Scalar.ofBits (F := Ideal) .f32 0x00000000#32)) shapeCasts_S1024x1_S1024x1) y).trans
    Ideal.ofBits_zero_f32

/-! ## The operations that are not pointwise, each read at an entry -/

/-- The exponential of a block, read at an entry. -/
private theorem exp_at {s : Shape} (a : FVec Ideal s .f32) (i : s.Idx) : exp a i = Ideal.exp (a i) := rfl

/-- The lane sum of a block of 1024 rows, at row `r`, is the plain sum over the row's entries. -/
private theorem laneSum_apply {n : ℕ} (v : FVec Ideal ⟨2, ![1024, n]⟩ .f32)
    (h : Shape.Reduces ⟨2, ![1024, n]⟩ [1] ⟨1, ![1024]⟩) (hφ : FKind.Formats .f32)
    (hacc : (0x00000000#32 : BitVec 32) = FKind.add.neutral .f32 hφ) (r : Fin 1024) :
    multiReduction (F := Ideal) .add [1] ⟨1, ![1024]⟩ v 0x00000000#32 h hφ hacc (ix1 r) = ∑ c : Fin n, v (ix2 r c) := by
  refine (Ideal.multiReduction_add_single v 0x00000000#32 h hφ hacc (ix1 r)).trans ?_
  refine Finset.sum_congr rfl fun c _ => congrArg v ?_
  funext a
  match a with
  | ⟨0, _⟩ => rfl
  | ⟨1, _⟩ => rfl

/-! ## The matrix product, read at an entry -/

private theorem lhs_dot_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
private theorem lhs_dot_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
private theorem rhs_dot_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
private theorem rhs_dot_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a 1024 x 128 block with a 128 x 1024 block into a zero accumulator, at entry `(r, c)`: the plain sum
    over the 128 contracted entries of row `r` of the first times column `c` of the second. -/
private theorem matmul_at (A : FVec Ideal S1024x128 .bf16) (B : FVec Ideal S128x1024 .bf16) (r c : Fin 1024) :
    matmul dot_S1024x128_S128x1024_S1024x1024_1_0_0_1_n_n none A B (constant (F := Ideal) S1024x1024 .f32 0x00000000#32) (ix2 r c)
      = ∑ k : Fin 128, A (ix2 r k) * B (ix2 k c) := by
  refine (Ideal.matmul_constant_zero_apply dot_S1024x128_S128x1024_S1024x1024_1_0_0_1_n_n none A B (ix2 r c)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r c) ((contrEquiv1 dot_S1024x128_S128x1024_S1024x1024_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S1024x128_S128x1024_S1024x1024_1_0_0_1_n_n.rhsIdx (ix2 r c) ((contrEquiv1 dot_S1024x128_S128x1024_S1024x1024_1_0_0_1_n_n 128 rfl rfl).symm k) = ix2 k c := funext fun a => Fin.ext (by
    match a with
    | ⟨0, _⟩ => exact (rhs_dot_0 _ _).trans hk
    | ⟨1, _⟩ => exact rhs_dot_1 _ _)
  rw [el, er]

/-! ## The two masks: a one-bit comparison, widened and converted, is 0 or 1 -/

/-- A one-bit word widened to 32 bits and converted is 1 for the bit 1 and 0 for the bit 0. -/
private theorem sitofp_bit (b : BitVec 1) :
    FloatOps.sitofp (F := Ideal) .f32 (b.setWidth 32) = if b = 1#1 then (1 : EReal) else 0 := by
  show (((b.setWidth 32).toInt : ℝ) : EReal) = _
  rcases BitVec.eq_zero_or_eq_one b with rfl | rfl
  · rw [if_neg (by decide), show (BitVec.setWidth 32 0#1).toInt = 0 by decide]; simp
  · rw [if_pos rfl, show (BitVec.setWidth 32 1#1).toInt = 1 by decide]; simp

/-- The comparison for equality gives the bit 1 exactly on equal words … -/
private theorem cmpi_eq_one_iff (a b : BitVec 32) : IntOp.cmpi .eq a b = 1#1 ↔ a = b := by
  show BitVec.ofBool (a == b) = 1#1 ↔ a = b
  cases hab : (a == b)
  · have hne : a ≠ b := by simpa using hab
    exact ⟨fun h => absurd h (by decide), fun h => absurd h hne⟩
  · have he : a = b := by simpa using hab
    exact ⟨fun _ => he, fun _ => by decide⟩

/-- … and the comparison for inequality exactly on different ones. -/
private theorem cmpi_ne_one_iff (a b : BitVec 32) : IntOp.cmpi .ne a b = 1#1 ↔ a ≠ b := by
  show BitVec.ofBool (!(a == b)) = 1#1 ↔ a ≠ b
  cases hab : (a == b)
  · have hne : a ≠ b := by simpa using hab
    exact ⟨fun _ => hne, fun _ => by decide⟩
  · have he : a = b := by simpa using hab
    exact ⟨fun h => absurd h (by decide), fun h => absurd he h⟩

/-- Row number plus 1024 times the block number, as 32-bit words, does not wrap around. -/
private theorem word_of_row (I : ℕ) (hI : I < 8) (r : Fin 1024) :
    IntOp.addi (BitVec.ofNat 32 r.val) (Scalar.muli (BitVec.ofNat 32 I) 1024#32) = BitVec.ofNat 32 (1024 * I + r.val) := by
  show BitVec.ofNat 32 r.val + BitVec.ofNat 32 I * 1024#32 = _
  apply BitVec.eq_of_toNat_eq
  simp only [BitVec.toNat_add, BitVec.toNat_mul, BitVec.toNat_ofNat]
  have := r.isLt
  omega

/-- [row 1024 I + r ≠ column 1024 J + c], computed on 32-bit words. -/
private theorem offMask_word (I J : ℕ) (hI : I < 8) (hJ : J < 8) (r c : Fin 1024) :
    FloatOps.sitofp (F := Ideal) .f32
      ((IntOp.cmpi .ne (IntOp.addi (BitVec.ofNat 32 r.val) (Scalar.muli (BitVec.ofNat 32 I) 1024#32))
        (IntOp.addi (BitVec.ofNat 32 c.val) (Scalar.muli (BitVec.ofNat 32 J) 1024#32))).setWidth 32)
      = Cert.Spec.offB I J r c := by
  rw [sitofp_bit, word_of_row I hI r, word_of_row J hJ c]
  unfold Cert.Spec.offB
  have hr := r.isLt
  have hc := c.isLt
  have hinj : BitVec.ofNat 32 (1024 * I + r.val) = BitVec.ofNat 32 (1024 * J + c.val) ↔ 1024 * I + r.val = 1024 * J + c.val := by
    constructor
    · intro h
      have := congrArg BitVec.toNat h
      simp only [BitVec.toNat_ofNat] at this
      omega
    · intro h; rw [h]
  by_cases h : 1024 * I + r.val = 1024 * J + c.val
  · rw [if_pos h, if_neg (fun e => (cmpi_ne_one_iff _ _).mp e (hinj.mpr h))]
  · rw [if_neg h, if_pos ((cmpi_ne_one_iff _ _).mpr fun e => h (hinj.mp e))]

/-- [a = b] of two 32-bit words, computed as the kernel does. -/
private theorem sameMask_word (a b : BitVec 32) :
    FloatOps.sitofp (F := Ideal) .f32 ((IntOp.cmpi .eq a b).setWidth 32) = if a = b then (1 : EReal) else 0 := by
  rw [sitofp_bit]
  by_cases h : a = b
  · rw [if_pos h, if_pos ((cmpi_eq_one_iff a b).mpr h)]
  · rw [if_neg h, if_neg (fun e => h ((cmpi_eq_one_iff a b).mp e))]

/-! ## The blocks at an entry -/

/-- Integer comparison and addition of blocks, read at an entry. -/
private theorem cmpi_at {s : Shape} {w : ℕ} (p : CmpIPredicate) (x y : IVec s w) (i : s.Idx) :
    cmpi p x y i = IntOp.cmpi p (x i) (y i) := rfl
private theorem addi_at {s : Shape} {w : ℕ} (x y : IVec s w) (i : s.Idx) : addi x y i = IntOp.addi (x i) (y i) := rfl

/-- The similarity block at entry `(r, c)`: exp (<row r of the first block, row c of the second> / (1/2)), times
    [row 1024 I + r ≠ column 1024 J + c]. -/
private theorem pay5_apply (i : grid0.Coords) (x0 x1 : Vec Ideal S1024x128 .bf16) (r c : Fin 1024) :
    k0_pay5 (F := Ideal) i x0 x1 (ix2 r c)
      = Cert.Spec.simRow (Cert.Spec.blk2 x0 r) (Cert.Spec.blk2 x1 c) * Cert.Spec.offB (i 0).val (i 1).val r c := by
  unfold k0_pay5
  rw [mulf_apply]
  refine congr (congrArg HMul.hMul ?_) ?_
  · rw [exp_at, divf_apply, broadcast_apply]
    refine congrArg (fun t => Ideal.exp (Ideal.div t Cert.Spec.half)) ?_
    refine (matmul_at _ _ r c).trans ?_
    refine Finset.sum_congr rfl fun k _ => ?_
    rw [shapeCast_self, transpose_ix2_apply, shapeCast_self]
    rfl
  · rw [sitofp_apply, extui_apply, cmpi_at, addi_at, addi_at, broadcast_apply, broadcast_apply,
      iota_single_apply, iota_single_apply]
    exact offMask_word (i 0).val (i 1).val (i 0).isLt (i 1).isLt r c

/-- The row labels laid across the columns, and the column labels laid down the rows, at entry `(r, c)`. -/
private theorem pay7_apply (x3 : Vec Ideal S1024x1 .i32) (r c : Fin 1024) :
    k0_pay7 (F := Ideal) x3 (ix2 r c) = x3 (ix2 r (0 : Fin 1)) := by
  unfold k0_pay7
  rw [shapeCast_self]
  exact Cert.LibColumn.broadcastTo_a1_ab_apply _ broadcasts_S1024x1_S1024x1024 r c
private theorem pay8_apply (x4 : Vec Ideal S1x1024 .i32) (r c : Fin 1024) :
    k0_pay8 (F := Ideal) x4 (ix2 r c) = x4 (ix2 (0 : Fin 1) c) := by
  unfold k0_pay8
  rw [shapeCast_self]
  exact broadcastTo_1b_ab_apply _ broadcasts_S1x1024_S1024x1024 r c

/-! ## The two running sums after a point -/

/-- The total after the point, at row `r`: what it held plus the point's contribution. -/
theorem totNext_apply (i : grid0.Coords) (x0 x1 : Vec Ideal S1024x128 .bf16) (s1 : Vec Ideal S1024x1 .f32) (r : Fin 1024) :
    totNext (F := Ideal) i x0 x1 s1 (ix2 r (0 : Fin 1))
      = s1 (ix2 r (0 : Fin 1)) + Cert.Spec.totB (Cert.Spec.blk2 x0) (Cert.Spec.blk2 x1) (i 0).val (i 1).val r := by
  unfold totNext k0_pay6
  refine (congrFun (shapeCast_self _ _) _).trans ?_
  rw [addf_apply]
  refine congrArg (s1 (ix2 r (0 : Fin 1)) + ·) ?_
  refine (Cert.LibColumn.shapeCast_a_a1_apply _ shapeCasts_S1024_S1024x1 r 0).trans ?_
  refine (laneSum_apply _ _ _ _ r).trans ?_
  exact Finset.sum_congr rfl fun c _ => pay5_apply i x0 x1 r c

/-- The positives after the point, at row `r`. -/
theorem posNext_apply (i : grid0.Coords) (x0 x1 : Vec Ideal S1024x128 .bf16) (x3 : Vec Ideal S1024x1 .i32) (x4 : Vec Ideal S1x1024 .i32)
    (s0 : Vec Ideal S1024x1 .f32) (r : Fin 1024) :
    posNext (F := Ideal) i x0 x1 x3 x4 s0 (ix2 r (0 : Fin 1))
      = s0 (ix2 r (0 : Fin 1)) + Cert.Spec.posB (Cert.Spec.blk2 x0) (Cert.Spec.blk2 x1)
          (fun r => x3 (ix2 r (0 : Fin 1))) (fun c => x4 (ix2 (0 : Fin 1) c)) (i 0).val (i 1).val r := by
  unfold posNext k0_pay1
  refine (congrFun (shapeCast_self _ _) _).trans ?_
  rw [addf_apply]
  refine congrArg (s0 (ix2 r (0 : Fin 1)) + ·) ?_
  refine (Cert.LibColumn.shapeCast_a_a1_apply _ shapeCasts_S1024_S1024x1 r 0).trans ?_
  refine (laneSum_apply _ _ _ _ r).trans ?_
  refine Finset.sum_congr rfl fun c _ => ?_
  rw [mulf_apply, pay5_apply]
  refine congrArg (fun t : EReal => Cert.Spec.simRow (Cert.Spec.blk2 x0 r) (Cert.Spec.blk2 x1 c) * Cert.Spec.offB (i 0).val (i 1).val r c * t) ?_
  rw [sitofp_apply, extui_apply, cmpi_at, pay7_apply, pay8_apply]
  exact sameMask_word _ _

/-! ## The proxy block -/

/-- The proxy block at row `r`. -/
theorem proxVal_apply (x0 x2 : Vec Ideal S1024x128 .bf16) (r : Fin 1024) :
    proxVal (F := Ideal) x0 x2 (ix2 r (0 : Fin 1)) = Cert.Spec.simRow (Cert.Spec.blk2 x0 r) (Cert.Spec.blk2 x2 r) := by
  unfold proxVal k0_pay4
  rw [exp_at, divf_apply, broadcast_apply]
  refine congrArg (fun t => Ideal.exp (Ideal.div t Cert.Spec.half)) ?_
  refine (Cert.LibColumn.shapeCast_a_a1_apply _ shapeCasts_S1024_S1024x1 r 0).trans ?_
  refine (laneSum_apply _ _ _ _ r).trans ?_
  refine Finset.sum_congr rfl fun k _ => ?_
  rw [shapeCast_self, shapeCast_self]
  rfl

end Cert.KernelIdeal.Hand

end
-- ==== Proof.Value.Fold.lean ====
/-
  Along a row of grid points the two scratch sums add up the eight column blocks' contributions: at the row's last
  point (j = 7) the total of row r of row block I is the sum over ALL 8192 columns of sim * [r ≠ c], the positives likewise
  with the label factor, and the held proxy block is the row's proxy similarity. The windows' blocks are read off the
  arrays the region finds: window 0 (rows) and window 1 (columns) off the normalized embedding, window 2 off the normalized
  proxy, windows 3 and 4 off the labels as a column and as a row.
-/
import proofs.«100202_j1683627180664_1_alg».proof.Proof.Value.Spec
import proofs.«100202_j1683627180664_1_alg».proof.Proof.Value.Blocks
import proofs.«100202_j1683627180664_1_alg».proof.Proof.Ideal.Data

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The arrays the region finds, read by row and column on the extended reals. -/
abbrev enArr (c : Dev nD) : Fin 8192 → Fin 128 → EReal := Cert.Spec.rows2 (V (F := Ideal) m c main_v16 : S8192x128.Idx → EReal)
abbrev pnArr (c : Dev nD) : Fin 8192 → Fin 128 → EReal := Cert.Spec.rows2 (V (F := Ideal) m c main_v17 : S8192x128.Idx → EReal)

/-- The array row that row `r` of the block of point `t` is: 1024 * (t / 8) + r. -/
def rowAt (t : Fin cfg0.N) (r : Fin 1024) : Fin 8192 :=
  ⟨1024 * (t.val / 8) + r.val, by have h := t.isLt; have hN : cfg0.N = 64 := N_0; omega⟩

/-! ## The windows' blocks, read off the arrays

A block's element sits in its array, on each axis, at the block index times the block's size plus its own coordinate; the
block indices at point t are (t / 8, 0), (t % 8, 0), (t / 8, 0), (t / 8, 0), (0, t % 8) for windows 0 to 4. -/

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = t.val / 8 ∧ win0_3.index t 1 = 0 :=
  (by decide +kernel : ∀ t : Fin grid0.N, win0_3.index t 0 = t.val / 8 ∧ win0_3.index t 1 = 0)
theorem idx4 : ∀ t : Fin cfg0.N, win0_4.index t 0 = 0 ∧ win0_4.index t 1 = t.val % 8 :=
  (by decide +kernel : ∀ t : Fin grid0.N, win0_4.index t 0 = 0 ∧ win0_4.index t 1 = t.val % 8)
/-- The grid is walked row-major. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem iblk0_apply (c : Dev nD) (t : Fin cfg0.N) (x : S1024x128.Idx) (k : S8192x128.Idx)
    (hk0 : (k 0).val = 1024 * (t.val / 8) + (x 0).val) (hk1 : (k 1).val = (x 1).val) :
    (iblk (F := Ideal) m c 0 t : Vec Ideal S1024x128 .bf16) x = (V (F := Ideal) m c main_v16 : S8192x128.Idx → EReal) k := by
  have hi := idx0 t
  unfold iblk
  rw [View.read_apply]
  show V m c main_v16 _ = V m c main_v16 _
  congr 1
  funext a
  apply Fin.ext
  match a with
  | ⟨0, _⟩ => show win0_0.index t 0 * 1024 + 1 * (x 0).val = (k 0).val; rw [hi.1, hk0]; omega
  | ⟨1, _⟩ => show win0_0.index t 1 * 128 + 1 * (x 1).val = (k 1).val; rw [hi.2, hk1]; omega

theorem iblk1_apply (c : Dev nD) (t : Fin cfg0.N) (x : S1024x128.Idx) (k : S8192x128.Idx)
    (hk0 : (k 0).val = 1024 * (t.val % 8) + (x 0).val) (hk1 : (k 1).val = (x 1).val) :
    (iblk (F := Ideal) m c 1 t : Vec Ideal S1024x128 .bf16) x = (V (F := Ideal) m c main_v16 : S8192x128.Idx → EReal) k := by
  have hi := idx1 t
  unfold iblk
  rw [View.read_apply]
  show V m c main_v16 _ = V m c main_v16 _
  congr 1
  funext a
  apply Fin.ext
  match a with
  | ⟨0, _⟩ => show win0_1.index t 0 * 1024 + 1 * (x 0).val = (k 0).val; rw [hi.1, hk0]; omega
  | ⟨1, _⟩ => show win0_1.index t 1 * 128 + 1 * (x 1).val = (k 1).val; rw [hi.2, hk1]; omega

theorem iblk2_apply (c : Dev nD) (t : Fin cfg0.N) (x : S1024x128.Idx) (k : S8192x128.Idx)
    (hk0 : (k 0).val = 1024 * (t.val / 8) + (x 0).val) (hk1 : (k 1).val = (x 1).val) :
    (iblk (F := Ideal) m c 2 t : Vec Ideal S1024x128 .bf16) x = (V (F := Ideal) m c main_v17 : S8192x128.Idx → EReal) k := by
  have hi := idx2 t
  unfold iblk
  rw [View.read_apply]
  show V m c main_v17 _ = V m c main_v17 _
  congr 1
  funext a
  apply Fin.ext
  match a with
  | ⟨0, _⟩ => show win0_2.index t 0 * 1024 + 1 * (x 0).val = (k 0).val; rw [hi.1, hk0]; omega
  | ⟨1, _⟩ => show win0_2.index t 1 * 128 + 1 * (x 1).val = (k 1).val; rw [hi.2, hk1]; omega

theorem iblk3_apply (c : Dev nD) (t : Fin cfg0.N) (x : S1024x1.Idx) (k : S8192x1.Idx)
    (hk0 : (k 0).val = 1024 * (t.val / 8) + (x 0).val) (hk1 : (k 1).val = (x 1).val) :
    (iblk (F := Ideal) m c 3 t : Vec Ideal S1024x1 .i32) x = (V (F := Ideal) m c main_v18 : S8192x1.Idx → BitVec 32) k := by
  have hi := idx3 t
  unfold iblk
  rw [View.read_apply]
  show V m c main_v18 _ = V m c main_v18 _
  congr 1
  funext a
  apply Fin.ext
  match a with
  | ⟨0, _⟩ => show win0_3.index t 0 * 1024 + 1 * (x 0).val = (k 0).val; rw [hi.1, hk0]; omega
  | ⟨1, _⟩ => show win0_3.index t 1 * 1 + 1 * (x 1).val = (k 1).val; rw [hi.2, hk1]; omega

theorem iblk4_apply (c : Dev nD) (t : Fin cfg0.N) (x : S1x1024.Idx) (k : S1x8192.Idx)
    (hk0 : (k 0).val = (x 0).val) (hk1 : (k 1).val = 1024 * (t.val % 8) + (x 1).val) :
    (iblk (F := Ideal) m c 4 t : Vec Ideal S1x1024 .i32) x = (V (F := Ideal) m c main_v19 : S1x8192.Idx → BitVec 32) k := by
  have hi := idx4 t
  unfold iblk
  rw [View.read_apply]
  show V m c main_v19 _ = V m c main_v19 _
  congr 1
  funext a
  apply Fin.ext
  match a with
  | ⟨0, _⟩ => show win0_4.index t 0 * 1 + 1 * (x 0).val = (k 0).val; rw [hi.1, hk0]; omega
  | ⟨1, _⟩ => show win0_4.index t 1 * 1024 + 1 * (x 1).val = (k 1).val; rw [hi.2, hk1]; omega

/-- The column block of point t as a block index below 8. -/
def colOf (t : Fin cfg0.N) : Fin 8 := ⟨t.val % 8, Nat.mod_lt _ (by decide)⟩

/-- Window 0's block at row r is row 1024 (t / 8) + r of the embedding; window 1's at row s is row 1024 (t % 8) + s; window 2's
    at row r is row 1024 (t / 8) + r of the proxy. -/
theorem blk0_row (c : Dev nD) (t : Fin cfg0.N) (r : Fin 1024) :
    Cert.Spec.blk2 (iblk (F := Ideal) m c 0 t : Vec Ideal S1024x128 .bf16) r = enArr m c (rowAt t r) :=
  funext fun k => iblk0_apply m c t (ix2 r k) (ix2 (rowAt t r) k) rfl rfl
theorem blk1_row (c : Dev nD) (t : Fin cfg0.N) (s : Fin 1024) :
    Cert.Spec.blk2 (iblk (F := Ideal) m c 1 t : Vec Ideal S1024x128 .bf16) s = enArr m c (Cert.Spec.rowOf (colOf t) s) :=
  funext fun k => iblk1_apply m c t (ix2 s k) (ix2 (Cert.Spec.rowOf (colOf t) s) k) rfl rfl
theorem blk2_row (c : Dev nD) (t : Fin cfg0.N) (r : Fin 1024) :
    Cert.Spec.blk2 (iblk (F := Ideal) m c 2 t : Vec Ideal S1024x128 .bf16) r = pnArr m c (rowAt t r) :=
  funext fun k => iblk2_apply m c t (ix2 r k) (ix2 (rowAt t r) k) rfl rfl

/-- The labels' blocks: window 3's block at row r is the label of row 1024 (t / 8) + r, window 4's at column s the label of
    column 1024 (t % 8) + s. -/
theorem lab3 (c : Dev nD) (lab : Fin 8192 → BitVec 32)
    (hlr : ∀ n : Fin 8192, (V (F := Ideal) m c main_v18 : S8192x1.Idx → BitVec 32) (ix2 n (0 : Fin 1)) = lab n)
    (t : Fin cfg0.N) (r : Fin 1024) :
    (iblk (F := Ideal) m c 3 t : Vec Ideal S1024x1 .i32) (ix2 r (0 : Fin 1)) = lab (rowAt t r) :=
  (iblk3_apply m c t (ix2 r (0 : Fin 1)) (ix2 (rowAt t r) (0 : Fin 1)) rfl rfl).trans (hlr _)
theorem lab4 (c : Dev nD) (lab : Fin 8192 → BitVec 32)
    (hlc : ∀ n : Fin 8192, (V (F := Ideal) m c main_v19 : S1x8192.Idx → BitVec 32) (ix2 (0 : Fin 1) n) = lab n)
    (t : Fin cfg0.N) (s : Fin 1024) :
    (iblk (F := Ideal) m c 4 t : Vec Ideal S1x1024 .i32) (ix2 (0 : Fin 1) s) = lab (Cert.Spec.rowOf (colOf t) s) :=
  (iblk4_apply m c t (ix2 (0 : Fin 1) s) (ix2 (0 : Fin 1) (Cert.Spec.rowOf (colOf t) s)) rfl rfl).trans (hlc _)

/-! ## One point's contribution -/

/-- Row R's terms of the total summed over the 1024 columns of column block J (nothing past the eight blocks). -/
def colTot (e : Fin 8192 → Fin 128 → EReal) (R : Fin 8192) (J : ℕ) : EReal :=
  if h : J < 8 then ∑ s : Fin 1024, Cert.Spec.sim e R (Cert.Spec.rowOf ⟨J, h⟩ s) * Cert.Spec.off R (Cert.Spec.rowOf ⟨J, h⟩ s) else 0
/-- The same for the positives. -/
def colPos (e : Fin 8192 → Fin 128 → EReal) (lab : Fin 8192 → BitVec 32) (R : Fin 8192) (J : ℕ) : EReal :=
  if h : J < 8 then ∑ s : Fin 1024, (Cert.Spec.sim e R (Cert.Spec.rowOf ⟨J, h⟩ s) * Cert.Spec.off R (Cert.Spec.rowOf ⟨J, h⟩ s))
      * Cert.Spec.same lab R (Cert.Spec.rowOf ⟨J, h⟩ s) else 0

/-- The block's diagonal mask is the arrays': both compare 1024 (t / 8) + r with 1024 (t % 8) + s. -/
theorem offB_eq (t : Fin cfg0.N) (r s : Fin 1024) :
    Cert.Spec.offB (grid0.coords t 0).val (grid0.coords t 1).val r s = Cert.Spec.off (rowAt t r) (Cert.Spec.rowOf (colOf t) s) := by
  obtain ⟨h0, h1⟩ := coords_val t
  unfold Cert.Spec.offB Cert.Spec.off
  rw [h0, h1]
  refine if_congr ?_ rfl rfl
  rw [Fin.ext_iff]
  exact Iff.rfl

/-- The blocks' label comparison is the arrays'. -/
theorem sameB_eq (c : Dev nD) (lab : Fin 8192 → BitVec 32)
    (hlr : ∀ n : Fin 8192, (V (F := Ideal) m c main_v18 : S8192x1.Idx → BitVec 32) (ix2 n (0 : Fin 1)) = lab n)
    (hlc : ∀ n : Fin 8192, (V (F := Ideal) m c main_v19 : S1x8192.Idx → BitVec 32) (ix2 (0 : Fin 1) n) = lab n)
    (t : Fin cfg0.N) (r s : Fin 1024) :
    Cert.Spec.sameB (fun r => (iblk (F := Ideal) m c 3 t : Vec Ideal S1024x1 .i32) (ix2 r (0 : Fin 1)))
        (fun s => (iblk (F := Ideal) m c 4 t : Vec Ideal S1x1024 .i32) (ix2 (0 : Fin 1) s)) r s
      = Cert.Spec.same lab (rowAt t r) (Cert.Spec.rowOf (colOf t) s) := by
  unfold Cert.Spec.sameB Cert.Spec.same
  refine if_congr ?_ rfl rfl
  dsimp only
  rw [lab3 m c lab hlr t r, lab4 m c lab hlc t s]

theorem tot_point (c : Dev nD) (t : Fin cfg0.N) (r : Fin 1024) :
    Cert.Spec.totB (Cert.Spec.blk2 (iblk (F := Ideal) m c 0 t : Vec Ideal S1024x128 .bf16))
        (Cert.Spec.blk2 (iblk (F := Ideal) m c 1 t : Vec Ideal S1024x128 .bf16)) (grid0.coords t 0).val (grid0.coords t 1).val r
      = colTot (enArr m c) (rowAt t r) (t.val % 8) := by
  unfold Cert.Spec.totB colTot
  rw [dif_pos (Nat.mod_lt _ (by decide))]
  refine Finset.sum_congr rfl fun s _ => ?_
  rw [blk0_row m c t r, blk1_row m c t s, offB_eq t r s]
  rfl

theorem pos_point (c : Dev nD) (lab : Fin 8192 → BitVec 32)
    (hlr : ∀ n : Fin 8192, (V (F := Ideal) m c main_v18 : S8192x1.Idx → BitVec 32) (ix2 n (0 : Fin 1)) = lab n)
    (hlc : ∀ n : Fin 8192, (V (F := Ideal) m c main_v19 : S1x8192.Idx → BitVec 32) (ix2 (0 : Fin 1) n) = lab n)
    (t : Fin cfg0.N) (r : Fin 1024) :
    Cert.Spec.posB (Cert.Spec.blk2 (iblk (F := Ideal) m c 0 t : Vec Ideal S1024x128 .bf16))
        (Cert.Spec.blk2 (iblk (F := Ideal) m c 1 t : Vec Ideal S1024x128 .bf16))
        (fun r => (iblk (F := Ideal) m c 3 t : Vec Ideal S1024x1 .i32) (ix2 r (0 : Fin 1)))
        (fun s => (iblk (F := Ideal) m c 4 t : Vec Ideal S1x1024 .i32) (ix2 (0 : Fin 1) s))
        (grid0.coords t 0).val (grid0.coords t 1).val r
      = colPos (enArr m c) lab (rowAt t r) (t.val % 8) := by
  unfold Cert.Spec.posB colPos
  rw [dif_pos (Nat.mod_lt _ (by decide))]
  refine Finset.sum_congr rfl fun s _ => ?_
  rw [blk0_row m c t r, blk1_row m c t s, offB_eq t r s, sameB_eq m c lab hlr hlc t r s]
  rfl

/-! ## The fold along a row of points -/

/-- The points of a row share the row block. -/
theorem rowAt_pred (t : Fin cfg0.N) (h0 : ¬ t.val % 8 = 0) (hlt : t.val - 1 < cfg0.N) (r : Fin 1024) :
    rowAt ⟨t.val - 1, hlt⟩ r = rowAt t r :=
  Fin.ext (by show 1024 * ((t.val - 1) / 8) + r.val = 1024 * (t.val / 8) + r.val; omega)

/-- After the point at column block j the total holds the contributions of the column blocks 0 .. j. -/
theorem tot_fold (c : Dev nD) (r : Fin 1024) : ∀ (j : ℕ) (t : Fin cfg0.N), t.val % 8 = j →
    (scAt (F := Ideal) m c t.val t.isLt).2 (ix2 r (0 : Fin 1))
      = ∑ J ∈ Finset.range (j + 1), colTot (enArr m c) (rowAt t r) J
  | 0, t, ht => by
    rw [scAt_first m c t ht]
    show totNext (grid0.coords t) (iblk m c 0 t) (iblk m c 1 t) tot0 (ix2 r (0 : Fin 1)) = _
    rw [totNext_apply, tot0_apply, zero_add, tot_point, ht, Finset.sum_range_one]
  | j + 1, t, ht => by
    have h0 : ¬ t.val % 8 = 0 := by omega
    have hlt : t.val - 1 < cfg0.N := Nat.lt_of_le_of_lt (Nat.sub_le _ _) t.isLt
    have ih := tot_fold c r j ⟨t.val - 1, hlt⟩ (by show (t.val - 1) % 8 = j; omega)
    rw [rowAt_pred t h0 hlt r] at ih
    rw [scAt_later m c t h0]
    show totNext (grid0.coords t) (iblk m c 0 t) (iblk m c 1 t) (scAt m c (t.val - 1) hlt).2 (ix2 r (0 : Fin 1)) = _
    rw [totNext_apply, tot_point, ht, Finset.sum_range_succ, ← ih]

/-- The same for the positives. -/
theorem pos_fold (c : Dev nD) (lab : Fin 8192 → BitVec 32)
    (hlr : ∀ n : Fin 8192, (V (F := Ideal) m c main_v18 : S8192x1.Idx → BitVec 32) (ix2 n (0 : Fin 1)) = lab n)
    (hlc : ∀ n : Fin 8192, (V (F := Ideal) m c main_v19 : S1x8192.Idx → BitVec 32) (ix2 (0 : Fin 1) n) = lab n)
    (r : Fin 1024) : ∀ (j : ℕ) (t : Fin cfg0.N), t.val % 8 = j →
    (scAt (F := Ideal) m c t.val t.isLt).1 (ix2 r (0 : Fin 1))
      = ∑ J ∈ Finset.range (j + 1), colPos (enArr m c) lab (rowAt t r) J
  | 0, t, ht => by
    rw [scAt_first m c t ht]
    show posNext (grid0.coords t) (iblk m c 0 t) (iblk m c 1 t) (iblk m c 3 t) (iblk m c 4 t) pos0 (ix2 r (0 : Fin 1)) = _
    rw [posNext_apply, pos0_apply, zero_add, pos_point m c lab hlr hlc, ht, Finset.sum_range_one]
  | j + 1, t, ht => by
    have h0 : ¬ t.val % 8 = 0 := by omega
    have hlt : t.val - 1 < cfg0.N := Nat.lt_of_le_of_lt (Nat.sub_le _ _) t.isLt
    have ih := pos_fold c lab hlr hlc r j ⟨t.val - 1, hlt⟩ (by show (t.val - 1) % 8 = j; omega)
    rw [rowAt_pred t h0 hlt r] at ih
    rw [scAt_later m c t h0]
    show posNext (grid0.coords t) (iblk m c 0 t) (iblk m c 1 t) (iblk m c 3 t) (iblk m c 4 t) (scAt m c (t.val - 1) hlt).1 (ix2 r (0 : Fin 1)) = _
    rw [posNext_apply, pos_point m c lab hlr hlc, ht, Finset.sum_range_succ, ← ih]

/-- The held proxy block is the one stored at the row's first point, whose row block the row's points share. -/
theorem prox_fold (c : Dev nD) (r : Fin 1024) : ∀ (j : ℕ) (t : Fin cfg0.N), t.val % 8 = j →
    proxAt (F := Ideal) m c t.val t.isLt (ix2 r (0 : Fin 1)) = Cert.Spec.prox (enArr m c) (pnArr m c) (rowAt t r)
  | 0, t, ht => by
    rw [proxAt_first m c t ht]
    refine (proxVal_apply (iblk m c 0 t) (iblk m c 2 t) r).trans ?_
    unfold Cert.Spec.prox
    rw [blk0_row m c t r, blk2_row m c t r]
  | j + 1, t, ht => by
    have h0 : ¬ t.val % 8 = 0 := by omega
    have hlt : t.val - 1 < cfg0.N := Nat.lt_of_le_of_lt (Nat.sub_le _ _) t.isLt
    have ih := prox_fold c r j ⟨t.val - 1, hlt⟩ (by show (t.val - 1) % 8 = j; omega)
    rw [rowAt_pred t h0 hlt r] at ih
    rw [proxAt_later m c t h0]
    exact ih

/-! ## The three facts -/

/-- At a row's last point the total holds the whole row sum. -/
theorem scAt_tot (c : Dev nD) (t : Fin cfg0.N) (h7 : t.val % 8 = 7) (r : Fin 1024) :
    (scAt (F := Ideal) m c t.val t.isLt).2 (ix2 r (0 : Fin 1)) = Cert.Spec.tot (enArr m c) (rowAt t r) := by
  -- the eight column blocks' contributions, regrouped into the sum over the 8192 columns
  rw [tot_fold m c r 7 t h7]
  show ∑ J ∈ Finset.range 8, colTot (enArr m c) (rowAt t r) J = _
  unfold Cert.Spec.tot
  rw [Cert.Spec.sum_blocks, Finset.sum_range]
  refine Finset.sum_congr rfl fun J _ => ?_
  unfold colTot
  rw [dif_pos J.isLt]

/-- At a row's last point the positives hold the whole row sum, the labels being `lab` both as a column and as a row. -/
theorem scAt_pos (c : Dev nD) (lab : Fin 8192 → BitVec 32)
    (hlr : ∀ n : Fin 8192, (V (F := Ideal) m c main_v18 : S8192x1.Idx → BitVec 32) (ix2 n (0 : Fin 1)) = lab n)
    (hlc : ∀ n : Fin 8192, (V (F := Ideal) m c main_v19 : S1x8192.Idx → BitVec 32) (ix2 (0 : Fin 1) n) = lab n)
    (t : Fin cfg0.N) (h7 : t.val % 8 = 7) (r : Fin 1024) :
    (scAt (F := Ideal) m c t.val t.isLt).1 (ix2 r (0 : Fin 1)) = Cert.Spec.pos (enArr m c) lab (rowAt t r) := by
  rw [pos_fold m c lab hlr hlc r 7 t h7]
  show ∑ J ∈ Finset.range 8, colPos (enArr m c) lab (rowAt t r) J = _
  unfold Cert.Spec.pos
  rw [Cert.Spec.sum_blocks, Finset.sum_range]
  refine Finset.sum_congr rfl fun J _ => ?_
  unfold colPos
  rw [dif_pos J.isLt]

/-- At every point of a row the held proxy block is the row block's proxy similarity. -/
theorem proxAt_val (c : Dev nD) (t : Fin cfg0.N) (r : Fin 1024) :
    proxAt (F := Ideal) m c t.val t.isLt (ix2 r (0 : Fin 1)) = Cert.Spec.prox (enArr m c) (pnArr m c) (rowAt t r) :=
  prox_fold m c r (t.val % 8) t rfl

end Cert.KernelIdeal.Hand

end
-- ==== Proof.Value.Arrays.lean ====
/-
  The three output arrays after the run. Each is written back once per row block, at the row's last grid point, with
  what the staging buffer then holds; the eight write-backs tile the 8192 rows. So row n of the first array is the
  positives' row sum, of the second the total's, of the third the proxy similarity.
-/
import proofs.«100202_j1683627180664_1_alg».proof.Proof.Value.Fold
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The output windows' blocks move down the rows with the row of grid points, and stay on the one column. -/
theorem outIdx : ∀ t : Fin cfg0.N,
    win0_5.index t (0 : Fin 2) = t.val / 8 ∧ win0_5.index t (1 : Fin 2) = 0
    ∧ win0_6.index t (0 : Fin 2) = t.val / 8 ∧ win0_6.index t (1 : Fin 2) = 0
    ∧ win0_7.index t (0 : Fin 2) = t.val / 8 ∧ win0_7.index t (1 : Fin 2) = 0 :=
  (by decide +kernel : ∀ t : Fin grid0.N, _)

/-! ## The positives (window 5) -/

/-- The positives' row sums as one column over the 8192 rows. -/
def posArr (c : Dev nD) (lab : Fin 8192 → BitVec 32) : S8192x1.Idx → EReal := fun i => Cert.Spec.pos (enArr m c) lab (i 0)

/-- What a row's last point writes back is its block of that column: the staging buffer holds the finished row values of the
    rows 1024 I .. 1024 I + 1023, and the block sits at rows index × 1024 + r of the array. -/
theorem flushed5_eq (c : Dev nD) (lab : Fin 8192 → BitVec 32)
    (hlr : ∀ n : Fin 8192, (V (F := Ideal) m c main_v18 : S8192x1.Idx → BitVec 32) (ix2 n (0 : Fin 1)) = lab n)
    (hlc : ∀ n : Fin 8192, (V (F := Ideal) m c main_v19 : S1x8192.Idx → BitVec 32) (ix2 (0 : Fin 1) n) = lab n) (t : Fin cfg0.N) (hf : (cfg0.win 5).flush t = true) :
    (dats (F := Ideal) m 0 c).flushed 5 t = ((cfg0.win 5).blk t).view.read (Elt Ideal) (posArr m c lab) := by
  have h7 : t.val % 8 = 7 := (flush0_5 t).mp hf
  show (cfg0.win 5).cut (grid0.coords t) ((dats m 0 c).after 5 t) = _
  rw [after5]
  funext j
  obtain ⟨r, z, rfl⟩ : ∃ (r : Fin 1024) (z : Fin 1), j = ix2 r z := ⟨j 0, j 1, eq_ix2 j⟩
  obtain rfl : z = 0 := Subsingleton.elim _ _
  show (scAt m c t.val t.isLt).1 (ix2 r 0) = posArr m c lab (((cfg0.win 5).blk t).view.emb (ix2 r 0))
  rw [scAt_pos m c lab hlr hlc t h7 r]
  show Cert.Spec.pos (enArr m c) lab (rowAt t r) = Cert.Spec.pos (enArr m c) lab ((((cfg0.win 5).blk t).view.emb (ix2 r 0)) 0)
  congr 1
  apply Fin.ext
  show 1024 * (t.val / 8) + r.val = win0_5.index t (0 : Fin 2) * 1024 + 1 * r.val
  rw [(outIdx t).1]; omega

/-- An index of the column is in point t's block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v20_0).slice (win0_5.rect t)).set ↔ _
  rw [View.set_slice_whole, Rect.mem_set_unit]
  exact Iff.rfl

/-- The eight write-backs tile the rows: row n is in the block of the last point of the row of points n / 1024. -/
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 64 := N_0
  have hlt : 8 * ((i 0).val / 1024) + 7 < cfg0.N := by omega
  refine ⟨⟨8 * ((i 0).val / 1024) + 7, hlt⟩, (flush0_5 _).mpr (by show (8 * ((i 0).val / 1024) + 7) % 8 = 7; omega), ?_⟩
  rw [mem_blk5]
  obtain ⟨e0, e1, -, -, -, -⟩ := outIdx ⟨8 * ((i 0).val / 1024) + 7, hlt⟩
  intro a
  match a with
  | ⟨0, _⟩ =>
    show win0_5.index _ (0 : Fin 2) * 1024 ≤ (i 0).val ∧ (i 0).val < win0_5.index _ (0 : Fin 2) * 1024 + 1024
    rw [e0]; dsimp only; omega
  | ⟨1, _⟩ =>
    show win0_5.index _ (1 : Fin 2) * 1 ≤ (i 1).val ∧ (i 1).val < win0_5.index _ (1 : Fin 2) * 1 + 1
    rw [e1]; omega

/-! ## The totals (window 6) -/

/-- The totals' row sums as one column over the 8192 rows. -/
def totArr (c : Dev nD) : S8192x1.Idx → EReal := fun i => Cert.Spec.tot (enArr m c) (i 0)

/-- What a row's last point writes back is its block of that column: the staging buffer holds the finished row values of the
    rows 1024 I .. 1024 I + 1023, and the block sits at rows index × 1024 + r of the array. -/
theorem flushed6_eq (c : Dev nD) (t : Fin cfg0.N) (hf : (cfg0.win 6).flush t = true) :
    (dats (F := Ideal) m 0 c).flushed 6 t = ((cfg0.win 6).blk t).view.read (Elt Ideal) (totArr m c) := by
  have h7 : t.val % 8 = 7 := (flush0_6 t).mp hf
  show (cfg0.win 6).cut (grid0.coords t) ((dats m 0 c).after 6 t) = _
  rw [after6]
  funext j
  obtain ⟨r, z, rfl⟩ : ∃ (r : Fin 1024) (z : Fin 1), j = ix2 r z := ⟨j 0, j 1, eq_ix2 j⟩
  obtain rfl : z = 0 := Subsingleton.elim _ _
  show (scAt m c t.val t.isLt).2 (ix2 r 0) = totArr m c (((cfg0.win 6).blk t).view.emb (ix2 r 0))
  rw [scAt_tot m c t h7 r]
  show Cert.Spec.tot (enArr m c) (rowAt t r) = Cert.Spec.tot (enArr m c) ((((cfg0.win 6).blk t).view.emb (ix2 r 0)) 0)
  congr 1
  apply Fin.ext
  show 1024 * (t.val / 8) + r.val = win0_6.index t (0 : Fin 2) * 1024 + 1 * r.val
  rw [(outIdx t).2.2.1]; omega

/-- An index of the column is in point t's block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v20_1).slice (win0_6.rect t)).set ↔ _
  rw [View.set_slice_whole, Rect.mem_set_unit]
  exact Iff.rfl

/-- The eight write-backs tile the rows: row n is in the block of the last point of the row of points n / 1024. -/
theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 64 := N_0
  have hlt : 8 * ((i 0).val / 1024) + 7 < cfg0.N := by omega
  refine ⟨⟨8 * ((i 0).val / 1024) + 7, hlt⟩, (flush0_6 _).mpr (by show (8 * ((i 0).val / 1024) + 7) % 8 = 7; omega), ?_⟩
  rw [mem_blk6]
  obtain ⟨-, -, e0, e1, -, -⟩ := outIdx ⟨8 * ((i 0).val / 1024) + 7, hlt⟩
  intro a
  match a with
  | ⟨0, _⟩ =>
    show win0_6.index _ (0 : Fin 2) * 1024 ≤ (i 0).val ∧ (i 0).val < win0_6.index _ (0 : Fin 2) * 1024 + 1024
    rw [e0]; dsimp only; omega
  | ⟨1, _⟩ =>
    show win0_6.index _ (1 : Fin 2) * 1 ≤ (i 1).val ∧ (i 1).val < win0_6.index _ (1 : Fin 2) * 1 + 1
    rw [e1]; omega

/-! ## The proxy similarities (window 7) -/

/-- The proxy similarities as one column over the 8192 rows. -/
def proxArr (c : Dev nD) : S8192x1.Idx → EReal := fun i => Cert.Spec.prox (enArr m c) (pnArr m c) (i 0)

/-- What a row's last point writes back is its block of that column: the staging buffer holds the finished row values of the
    rows 1024 I .. 1024 I + 1023, and the block sits at rows index × 1024 + r of the array. -/
theorem flushed7_eq (c : Dev nD) (t : Fin cfg0.N) (hf : (cfg0.win 7).flush t = true) :
    (dats (F := Ideal) m 0 c).flushed 7 t = ((cfg0.win 7).blk t).view.read (Elt Ideal) (proxArr m c) := by
  have h7 : t.val % 8 = 7 := (flush0_7 t).mp hf
  show (cfg0.win 7).cut (grid0.coords t) ((dats m 0 c).after 7 t) = _
  rw [after7]
  funext j
  obtain ⟨r, z, rfl⟩ : ∃ (r : Fin 1024) (z : Fin 1), j = ix2 r z := ⟨j 0, j 1, eq_ix2 j⟩
  obtain rfl : z = 0 := Subsingleton.elim _ _
  show proxAt m c t.val t.isLt (ix2 r 0) = proxArr m c (((cfg0.win 7).blk t).view.emb (ix2 r 0))
  rw [proxAt_val m c t r]
  show Cert.Spec.prox (enArr m c) (pnArr m c) (rowAt t r) = Cert.Spec.prox (enArr m c) (pnArr m c) ((((cfg0.win 7).blk t).view.emb (ix2 r 0)) 0)
  congr 1
  apply Fin.ext
  show 1024 * (t.val / 8) + r.val = win0_7.index t (0 : Fin 2) * 1024 + 1 * r.val
  rw [(outIdx t).2.2.2.2.1]; omega

/-- An index of the column is in point t's block iff each coordinate is in the block's range on its axis. -/
theorem mem_blk7 (t : Fin cfg0.N) (i : S8192x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v20_2).slice (win0_7.rect t)).set ↔ _
  rw [View.set_slice_whole, Rect.mem_set_unit]
  exact Iff.rfl

/-- The eight write-backs tile the rows: row n is in the block of the last point of the row of points n / 1024. -/
theorem cover7 (i : S8192x1.Idx) : ∃ t : Fin cfg0.N, (cfg0.win 7).flush t = true ∧ i ∈ ((cfg0.win 7).blk t).view.set := by
  have hi0 : (i 0).val < 8192 := (i 0).isLt
  have hi1 : (i 1).val < 1 := (i 1).isLt
  have hN : cfg0.N = 64 := N_0
  have hlt : 8 * ((i 0).val / 1024) + 7 < cfg0.N := by omega
  refine ⟨⟨8 * ((i 0).val / 1024) + 7, hlt⟩, (flush0_7 _).mpr (by show (8 * ((i 0).val / 1024) + 7) % 8 = 7; omega), ?_⟩
  rw [mem_blk7]
  obtain ⟨-, -, -, -, e0, e1⟩ := outIdx ⟨8 * ((i 0).val / 1024) + 7, hlt⟩
  intro a
  match a with
  | ⟨0, _⟩ =>
    show win0_7.index _ (0 : Fin 2) * 1024 ≤ (i 0).val ∧ (i 0).val < win0_7.index _ (0 : Fin 2) * 1024 + 1024
    rw [e0]; dsimp only; omega
  | ⟨1, _⟩ =>
    show win0_7.index _ (1 : Fin 2) * 1 ≤ (i 1).val ∧ (i 1).val < win0_7.index _ (1 : Fin 2) * 1 + 1
    rw [e1]; omega

/-! ## The three arrays after the run -/

theorem arr_pos (c : Dev nD) (lab : Fin 8192 → BitVec 32)
    (hlr : ∀ n : Fin 8192, (V (F := Ideal) m c main_v18 : S8192x1.Idx → BitVec 32) (ix2 n (0 : Fin 1)) = lab n)
    (hlc : ∀ n : Fin 8192, (V (F := Ideal) m c main_v19 : S1x8192.Idx → BitVec 32) (ix2 (0 : Fin 1) n) = lab n)
    (n : Fin 8192) :
    ((dats (F := Ideal) m 0 c).arrAt 5 cfg0.N : S8192x1.Idx → EReal) (ix2 n (0 : Fin 1)) = Cert.Spec.pos (enArr m c) lab n :=
  congrFun ((dats (F := Ideal) m 0 c).arrAt_eq_of_cover 5 (posArr m c lab) (flushed5_eq m c lab hlr hlc) cover5) (ix2 n (0 : Fin 1))

theorem arr_tot (c : Dev nD) (n : Fin 8192) :
    ((dats (F := Ideal) m 0 c).arrAt 6 cfg0.N : S8192x1.Idx → EReal) (ix2 n (0 : Fin 1)) = Cert.Spec.tot (enArr m c) n :=
  congrFun ((dats (F := Ideal) m 0 c).arrAt_eq_of_cover 6 (totArr m c) (flushed6_eq m c) cover6) (ix2 n (0 : Fin 1))

theorem arr_prox (c : Dev nD) (n : Fin 8192) :
    ((dats (F := Ideal) m 0 c).arrAt 7 cfg0.N : S8192x1.Idx → EReal) (ix2 n (0 : Fin 1)) = Cert.Spec.prox (enArr m c) (pnArr m c) n :=
  congrFun ((dats (F := Ideal) m 0 c).arrAt_eq_of_cover 7 (proxArr m c) (flushed7_eq m c) cover7) (ix2 n (0 : Fin 1))

end Cert.KernelIdeal.Hand

end
-- ==== Proof.Value.RefValue.lean ====
/-
  The reference program's result, read one operation at a time, is the loss of the specification at the row-normalized
  embedding and proxy: its 8192 x 8192 similarity matrix, the off-diagonal and same-label masks, the two row sums, the
  proxy term and the closing log-mean.
-/
import proofs.«100202_j1683627180664_1_alg».proof.Proof.Value.Spec
import proofs.«100202_j1683627180664_1_alg».proof.Proof.Gen.ReferenceIdeal.Read
import Idealize.ShloMosaic.Lib.IdealHost
import Idealize.ShloMosaic.Lib.ValueIdxRank1

noncomputable section

open scoped BigOperators

namespace Cert.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-! ## Words: a comparison's bit, converted -/

/-- The bit of "a = b", read as a number, is 1 where the words are equal and 0 where they are not. -/
theorem uitofp_cmpi_eq {w : Nat} (a b : BitVec w) :
    FloatOps.uitofp (F := Ideal) .f32 (IntOp.cmpi .eq a b) = if a = b then (1 : EReal) else 0 := by
  by_cases h : a = b
  · have hb : IntOp.cmpi .eq a b = 1#1 := by
      show BitVec.ofBool (a == b) = 1#1
      rw [beq_iff_eq.mpr h]; rfl
    rw [if_pos h, hb]
    show (((1 : ℕ) : ℝ) : EReal) = 1
    rw [Nat.cast_one, EReal.coe_one]
  · have hb : IntOp.cmpi .eq a b = 0#1 := by
      show BitVec.ofBool (a == b) = 0#1
      rw [show (a == b) = false from beq_eq_false_iff_ne.mpr h]; rfl
    rw [if_neg h, hb]
    show (((0 : ℕ) : ℝ) : EReal) = 0
    rw [Nat.cast_zero, EReal.coe_zero]

/-- Two row numbers below 8192 are equal exactly when their 32-bit words are. -/
theorem word_eq_iff (n c : Fin 8192) : IntOp.addi (BitVec.ofNat 32 n.val) 0#32 = BitVec.ofNat 32 c.val ↔ n = c := by
  show BitVec.ofNat 32 n.val + 0#32 = BitVec.ofNat 32 c.val ↔ n = c
  rw [BitVec.add_zero]
  constructor
  · intro h
    have h' := congrArg BitVec.toNat h
    rw [BitVec.toNat_ofNat, BitVec.toNat_ofNat] at h'
    have hn := n.isLt
    have hc := c.isLt
    exact Fin.ext (by omega)
  · intro h; rw [h]

/-! ## Indices: the operations' composed index maps, by coordinates -/

theorem lidx8 (n c : Fin 8192) (k : Fin 128) : lidx_main_v8 (ix2 n c) k = ix2 n k :=
  funext fun a => Fin.ext (by match a with | ⟨0, _⟩ => rfl | ⟨1, _⟩ => rfl)
theorem ridx8 (n c : Fin 8192) (k : Fin 128) : ridx_main_v8 (ix2 n c) k = ix2 c k :=
  funext fun a => Fin.ext (by match a with | ⟨0, _⟩ => rfl | ⟨1, _⟩ => rfl)
theorem idx23 (n c : Fin 8192) : idx_main_v21 (idx_main_v23 (ix2 n c)) = ix1 n :=
  funext fun a => Fin.ext (by match a with | ⟨0, _⟩ => rfl)
theorem idx24 (n c : Fin 8192) : idx_main_v22 (idx_main_v24 (ix2 n c)) = ix1 c :=
  funext fun a => Fin.ext (by match a with | ⟨0, _⟩ => rfl)
theorem idx29 (n c : Fin 8192) : idx_main_v29 (ix1 n) c = ix2 n c :=
  funext fun a => Fin.ext (by match a with | ⟨0, _⟩ => rfl | ⟨1, _⟩ => rfl)
theorem idx44 (n c : Fin 8192) : idx_main_v44 (ix1 n) c = ix2 n c :=
  funext fun a => Fin.ext (by match a with | ⟨0, _⟩ => rfl | ⟨1, _⟩ => rfl)
theorem idx39 (n : Fin 8192) (k : Fin 128) : idx_main_v39 (ix1 n) k = ix2 n k :=
  funext fun a => Fin.ext (by match a with | ⟨0, _⟩ => rfl | ⟨1, _⟩ => rfl)

/-- A sum over the indices of a vector of 8192 is the sum over its rows. -/
theorem sum_rows (g : S8192.Idx → EReal) : ∑ j, g j = ∑ n : Fin 8192, g (ix1 n) := by
  rw [← Equiv.sum_comp (idxEquiv1 (n := 8192)).symm g]; rfl

section
variable (x0 x1 : (⟨S8192x128, .f32⟩ : BufTy).Contents (Elt Ideal)) (x2 : (⟨S8192, .i32⟩ : BufTy).Contents (Elt Ideal))

/-! ## The two masks and the similarity, at a row and a column -/

/-- 1 - [row = column] is [row ≠ column]. -/
theorem mask_apply (n c : Fin 8192) : val_main_v19 (F := Ideal) (ix2 n c) = Cert.Spec.off n c := by
  rw [val_main_v19_apply, val_main_v18_apply, val_main_cst_2_apply, val_main_v17_apply, val_main_v16_apply,
    val_main_v15_apply, val_main_v12_apply, val_main_v14_apply, val_main_c_apply, val_main_v13_apply, uitofp_cmpi_eq]
  show Ideal.ofBits .f32 0x3F800000#32
      - (if IntOp.addi (BitVec.ofNat 32 n.val) 0#32 = BitVec.ofNat 32 c.val then (1 : EReal) else 0) = if n = c then 0 else 1
  rw [Ideal.ofBits_one_f32]
  by_cases h : n = c
  · rw [if_pos ((word_eq_iff n c).mpr h), if_pos h, ← EReal.coe_one, ← EReal.coe_sub, sub_self, EReal.coe_zero]
  · rw [if_neg (mt (word_eq_iff n c).mp h), if_neg h, sub_zero]

/-- [label of the row = label of the column]. -/
theorem same_apply (n c : Fin 8192) : val_main_v26 (F := Ideal) x2 (ix2 n c) = Cert.Spec.same (Cert.Spec.rows1 x2) n c := by
  rw [val_main_v26_apply, val_main_v25_apply, val_main_v23_apply, val_main_v21_apply, val_main_v24_apply,
    val_main_v22_apply, uitofp_cmpi_eq, idx23, idx24]
  rfl

/-- exp (<e_n, e_c> / (1/2)). -/
theorem sim_apply (n c : Fin 8192) :
    val_main_v11 (F := Ideal) x0 (ix2 n c) = Cert.Spec.sim (Cert.Spec.rows2 (val_main_v7 (F := Ideal) x0)) n c := by
  rw [val_main_v11_apply, val_main_v10_apply, val_main_v8_apply, val_main_v9_apply, val_main_cst_1_apply]
  simp only [lidx8, ridx8, Ideal.hostUnary_exp_def, Ideal.hostDivf_def, Ideal.ofBits_def]
  rfl

/-! ## The three row quantities -/

/-- The row sum of the masked similarities is the specification's total. -/
theorem tot_apply (n : Fin 8192) :
    val_main_v44 (F := Ideal) x0 (ix1 n) = Cert.Spec.tot (Cert.Spec.rows2 (val_main_v7 (F := Ideal) x0)) n := by
  rw [val_main_v44_apply, val_main_cst_8_apply, Ideal.ofBits_def, Ideal.ofBits_zero_f32, zero_add]
  unfold Cert.Spec.tot
  refine Finset.sum_congr rfl fun c _ => ?_
  rw [idx44, val_main_v20_apply, sim_apply, mask_apply, Ideal.mulf_def]

/-- The row sum of the masked similarities at equal labels is the specification's positives: the reference multiplies
    the off-diagonal mask in twice, and a mask that is 0 or 1 is its own square. -/
theorem pos_apply (n : Fin 8192) :
    val_main_v29 (F := Ideal) x0 x2 (ix1 n)
      = Cert.Spec.pos (Cert.Spec.rows2 (val_main_v7 (F := Ideal) x0)) (Cert.Spec.rows1 x2) n := by
  rw [val_main_v29_apply, val_main_cst_3_apply, Ideal.ofBits_def, Ideal.ofBits_zero_f32, zero_add]
  unfold Cert.Spec.pos
  refine Finset.sum_congr rfl fun c _ => ?_
  rw [idx29, val_main_v28_apply, val_main_v20_apply, val_main_v27_apply, sim_apply, mask_apply, same_apply,
    Ideal.mulf_def, Ideal.mulf_def, Ideal.mulf_def]
  unfold Cert.Spec.off
  by_cases h : n = c
  · rw [if_pos h, mul_zero, mul_zero, zero_mul, zero_mul]
  · rw [if_neg h, mul_one, mul_one]

/-- exp (<e_n, p_n> / (1/2)). -/
theorem prox_apply (n : Fin 8192) :
    val_main_v42 (F := Ideal) x0 x1 (ix1 n)
      = Cert.Spec.prox (Cert.Spec.rows2 (val_main_v7 (F := Ideal) x0)) (Cert.Spec.rows2 (val_main_v37 (F := Ideal) x1)) n := by
  rw [val_main_v42_apply, val_main_v41_apply, val_main_v39_apply, val_main_cst_6_apply, val_main_v40_apply,
    val_main_cst_7_apply, Ideal.ofBits_def, Ideal.ofBits_zero_f32, zero_add]
  simp only [idx39, val_main_v38_apply, Ideal.hostUnary_exp_def, Ideal.hostDivf_def, Ideal.ofBits_def, Ideal.mulf_def]
  rfl

end

/-- The reference's result is the specification's loss of the normalized rows (`val_main_v7`: the embedding divided by
    max (its row norm, eps); `val_main_v37`: the same of the proxy) and the labels. -/
theorem ref_loss (x0 x1 : (⟨S8192x128, .f32⟩ : BufTy).Contents (Elt Ideal)) (x2 : (⟨S8192, .i32⟩ : BufTy).Contents (Elt Ideal)) :
    val_main_v50 (F := Ideal) x0 x1 x2
      = fun _ => Cert.Spec.loss
          (Cert.Spec.pos (Cert.Spec.rows2 (val_main_v7 (F := Ideal) x0)) (Cert.Spec.rows1 x2))
          (Cert.Spec.tot (Cert.Spec.rows2 (val_main_v7 (F := Ideal) x0)))
          (Cert.Spec.prox (Cert.Spec.rows2 (val_main_v7 (F := Ideal) x0)) (Cert.Spec.rows2 (val_main_v37 (F := Ideal) x1))) := by
  funext i
  rw [val_main_v50_apply, val_main_v49_apply, val_main_v48_apply, val_main_cst_9_apply, val_main_cst_10_apply,
    Ideal.ofBits_def, Ideal.ofBits_zero_f32, zero_add, sum_rows]
  simp only [Ideal.hostNegf_def, Ideal.negf_def, Ideal.hostDivf_def, Ideal.ofBits_def]
  unfold Cert.Spec.loss
  refine congrArg (fun s => - Ideal.div s Cert.Spec.count) (Finset.sum_congr rfl fun n _ => ?_)
  rw [val_main_v47_apply, val_main_v46_apply, val_main_v43_apply, val_main_v45_apply, prox_apply, pos_apply, tot_apply]
  simp only [Ideal.hostUnary_log_def, Ideal.hostDivf_def, Ideal.addf_def]

end Cert.RefValue

end
-- ==== Proof.Value.Final.lean ====
/-
  The kernel program's result on the extended reals. After the region the three output arrays hold, row by row, the
  positives, the totals and the proxy similarities of the specification at the arrays the region was entered with; the later
  host operations turn them into - (sum over rows of log ((prox + pos) / (prox + tot))) / 8192, the specification's loss.
  The arrays the region is entered with are the host operations' before it: the row-normalized embedding and proxy (the
  same operations, literal by literal, as the reference's; the change of format to bf16 is the identity here) and the labels
  laid out as a column and as a row.
-/
import proofs.«100202_j1683627180664_1_alg».proof.Proof.Value.Arrays
import proofs.«100202_j1683627180664_1_alg».proof.Proof.Value.RefValue
import proofs.«100202_j1683627180664_1_alg».proof.Proof.LibColumn
import Idealize.ShloMosaic.Lib.Pipeline.FrameSuffix
import Idealize.ShloMosaic.Lib.StableHlo.Run
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

open Idealize.ShloMosaic.StableHlo

/-! ## The buffers the later host operations read: the three output arrays as the region left them -/

theorem uniq5 : ∀ w' : Fin 8, Pipeline.arrRef spec0 w' = main_v20_0 → w' = 5 := by decide
theorem uniq6 : ∀ w' : Fin 8, Pipeline.arrRef spec0 w' = main_v20_1 → w' = 6 := by decide
theorem uniq7 : ∀ w' : Fin 8, Pipeline.arrRef spec0 w' = main_v20_2 → w' = 7 := by decide

/-- A buffer that is exactly one window's array holds, after the region, that window's final contents. -/
theorem withArrays_unique (c : Dev nD) (Vv : Valuation τ sig (Elt Ideal))
    (A : (w : Fin 8) → Buf (Elt Ideal) ((spec0 w).arr.view.loc (c.tc : Thread nD τ))) (w : Fin 8)
    (huniq : ∀ w' : Fin 8, Pipeline.arrRef spec0 w' = Pipeline.arrRef spec0 w → w' = w) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 8) (e : Proc.devRef .tc (Pipeline.arrRef spec0 w') = Proc.devRef (τ := τ) .tc (Pipeline.arrRef spec0 w)),
      cast (congrArg (fun b' : DevRef τ sig => b'.ty.Contents (Elt Ideal)) e) (A w') = A w from this _ h.choose_spec
  intro w' e
  obtain rfl : w' = w := huniq w' (Proc.devRef_injective _ e)
  rfl

/-! ## The later host operations, as a function of the three arrays -/

/-- A column of 8192 read as a vector: entry n is the column's row n. -/
theorem col_apply (a : S8192x1.Idx → EReal) (n : Fin 8192) :
    shapeCast S8192 a shapeCasts_S8192x1_S8192 (ix1 n) = a (ix2 n (0 : Fin 1)) :=
  shapeCast_apply a shapeCasts_S8192x1_S8192 _ _ (by
    rw [Shape.rowMajor_val_two, Shape.rowMajor_val_one]
    show n.val * 1 + 0 = n.val
    omega)

/-- The closing chain: from the three columns, - (sum over the rows of log ((prox + pos) / (prox + tot))) / 8192. -/
theorem tail_apply (a5 a6 a7 : S8192x1.Idx → EReal) (i : S_.Idx) :
    Host.negf (F := Ideal) (Host.divf
        (Host.reduceAdd
          (Host.log (Host.divf
            (addf (fun j => shapeCast S8192 a7 shapeCasts_S8192x1_S8192 j) (fun j => shapeCast S8192 a5 shapeCasts_S8192x1_S8192 j))
            (addf (fun j => shapeCast S8192 a7 shapeCasts_S8192x1_S8192 j) (fun j => shapeCast S8192 a6 shapeCasts_S8192x1_S8192 j))))
          (constant S_ .f32 0x00000000#32) reducesTo_S8192_S_d0 h_S_)
        (constant S_ .f32 0x46000000#32)) i
      = Cert.Spec.loss (fun n => a5 (ix2 n (0 : Fin 1))) (fun n => a6 (ix2 n (0 : Fin 1))) (fun n => a7 (ix2 n (0 : Fin 1))) := by
  show FloatOps.hostNegf (FloatOps.hostDivf (Host.reduceAdd _ _ reducesTo_S8192_S_d0 h_S_ i) (FloatOps.ofBits .f32 0x46000000#32)) = _
  generalize hy : Host.log (F := Ideal) (Host.divf
            (addf (fun j => shapeCast S8192 a7 shapeCasts_S8192x1_S8192 j) (fun j => shapeCast S8192 a5 shapeCasts_S8192x1_S8192 j))
            (addf (fun j => shapeCast S8192 a7 shapeCasts_S8192x1_S8192 j) (fun j => shapeCast S8192 a6 shapeCasts_S8192x1_S8192 j))) = y0
  simp only [Host.reduceAdd, Ideal.hostReduceAdd_def]
  rw [Ideal.hostReduceAdd_total reducesTo_S8192_S_d0 (fun b => b.elim0) y0 _ i]
  show FloatOps.hostNegf (FloatOps.hostDivf (FloatOps.ofBits .f32 0x00000000#32 + ∑ j : S8192.Idx, y0 j) (FloatOps.ofBits .f32 0x46000000#32)) = _
  rw [Ideal.ofBits_def, Ideal.ofBits_zero_f32, zero_add, Cert.RefValue.sum_rows]
  simp only [Ideal.hostNegf_def, Ideal.negf_def, Ideal.hostDivf_def, Ideal.ofBits_def]
  unfold Cert.Spec.loss
  refine congrArg (fun s => - Ideal.div s Cert.Spec.count) (Finset.sum_congr rfl fun n _ => ?_)
  subst hy
  show FloatOps.hostUnary (F := Ideal) (φ := .f32) .log (FloatOps.hostDivf (F := Ideal) (φ := .f32)
      (FloatOps.addf (F := Ideal) (φ := .f32) (shapeCast S8192 a7 shapeCasts_S8192x1_S8192 (ix1 n)) (shapeCast S8192 a5 shapeCasts_S8192x1_S8192 (ix1 n)))
      (FloatOps.addf (F := Ideal) (φ := .f32) (shapeCast S8192 a7 shapeCasts_S8192x1_S8192 (ix1 n)) (shapeCast S8192 a6 shapeCasts_S8192x1_S8192 (ix1 n)))) = _
  rw [col_apply, col_apply, col_apply]
  simp only [Ideal.hostUnary_log_def, Ideal.hostDivf_def, Ideal.addf_def]

/-- The later host operations from ANY contents of the buffers: the result is the closing chain of the three columns. -/
theorem tail_of_valuation (W : Valuation τ sig (Elt Ideal)) :
    StableHlo.after hostOps1 W (Proc.devRef .tc main_v30)
      = fun _ => Cert.Spec.loss
          (fun n => (W (Proc.devRef .tc main_v20_0) : S8192x1.Idx → EReal) (ix2 n (0 : Fin 1)))
          (fun n => (W (Proc.devRef .tc main_v20_1) : S8192x1.Idx → EReal) (ix2 n (0 : Fin 1)))
          (fun n => (W (Proc.devRef .tc main_v20_2) : S8192x1.Idx → EReal) (ix2 n (0 : Fin 1))) := by
  after_results
  funext i
  exact tail_apply (W (Proc.devRef .tc main_v20_0)) (W (Proc.devRef .tc main_v20_1)) (W (Proc.devRef .tc main_v20_2)) i

/-- The program's result after the later host operations, from the three arrays as the region left them. -/
theorem tail_val (c : Dev nD) :
    Pipeline.afterTail₀ cfgs (dats (F := Ideal) m) 0 (V0 m) [hostOps1] c main_v30
      = fun _ => Cert.Spec.loss
          (fun n => ((dats (F := Ideal) m 0 c).arrAt 5 cfg0.N : S8192x1.Idx → EReal) (ix2 n (0 : Fin 1)))
          (fun n => ((dats (F := Ideal) m 0 c).arrAt 6 cfg0.N : S8192x1.Idx → EReal) (ix2 n (0 : Fin 1)))
          (fun n => ((dats (F := Ideal) m 0 c).arrAt 7 cfg0.N : S8192x1.Idx → EReal) (ix2 n (0 : Fin 1))) := by
  unfold Pipeline.afterTail₀
  show StableHlo.after hostOps1 (Pipeline.withArrays spec0 c (V0 m c) (fun w => (dats (F := Ideal) m 0 c).arrAt w cfg0.N))
      (Proc.devRef .tc main_v30) = _
  rw [tail_of_valuation]
  have e5 : Pipeline.withArrays spec0 c (V0 m c) (fun w => (dats (F := Ideal) m 0 c).arrAt w cfg0.N) (Proc.devRef .tc main_v20_0)
      = (dats (F := Ideal) m 0 c).arrAt 5 cfg0.N :=
    withArrays_unique c (V0 m c) (fun w => (dats (F := Ideal) m 0 c).arrAt w cfg0.N) 5 uniq5
  have e6 : Pipeline.withArrays spec0 c (V0 m c) (fun w => (dats (F := Ideal) m 0 c).arrAt w cfg0.N) (Proc.devRef .tc main_v20_1)
      = (dats (F := Ideal) m 0 c).arrAt 6 cfg0.N :=
    withArrays_unique c (V0 m c) (fun w => (dats (F := Ideal) m 0 c).arrAt w cfg0.N) 6 uniq6
  have e7 : Pipeline.withArrays spec0 c (V0 m c) (fun w => (dats (F := Ideal) m 0 c).arrAt w cfg0.N) (Proc.devRef .tc main_v20_2)
      = (dats (F := Ideal) m 0 c).arrAt 7 cfg0.N :=
    withArrays_unique c (V0 m c) (fun w => (dats (F := Ideal) m 0 c).arrAt w cfg0.N) 7 uniq7
  rw [e5, e6, e7]

/-! ## The arrays the region is entered with -/

/-- The labels as a column: row n is label n. -/
theorem V_labels_col (c : Dev nD) (n : Fin 8192) :
    (V (F := Ideal) m c main_v18 : S8192x1.Idx → BitVec 32) (ix2 n (0 : Fin 1))
      = (m ((c.tc : Thread nD τ).loc main_arg2) : S8192.Idx → BitVec 32) (ix1 n) := by
  have e : (V (F := Ideal) m c main_v18 : S8192x1.Idx → BitVec 32)
      = fun i => shapeCast S8192x1 (m ((c.tc : Thread nD τ).loc main_arg2) : S8192.Idx → BitVec 32) shapeCasts_S8192_S8192x1 i := by
    show StableHlo.after hostOps0 (fun b => m (c, b)) (Proc.devRef .tc main_v18) = _
    after_results
    rfl
  rw [e]
  exact Cert.LibColumn.shapeCast_a_a1_apply _ shapeCasts_S8192_S8192x1 n 0

/-- The labels as a row: column n is label n. -/
theorem V_labels_row (c : Dev nD) (n : Fin 8192) :
    (V (F := Ideal) m c main_v19 : S1x8192.Idx → BitVec 32) (ix2 (0 : Fin 1) n)
      = (m ((c.tc : Thread nD τ).loc main_arg2) : S8192.Idx → BitVec 32) (ix1 n) := by
  have e : (V (F := Ideal) m c main_v19 : S1x8192.Idx → BitVec 32)
      = fun i => shapeCast S1x8192 (m ((c.tc : Thread nD τ).loc main_arg2) : S8192.Idx → BitVec 32) shapeCasts_S8192_S1x8192 i := by
    show StableHlo.after hostOps0 (fun b => m (c, b)) (Proc.devRef .tc main_v19) = _
    after_results
    rfl
  rw [e]
  exact shapeCast_a_1a_apply _ shapeCasts_S8192_S1x8192 0 n

/-- The normalized embedding the region reads is the reference's, operation by operation. -/
theorem V_embed (c : Dev nD) :
    (V (F := Ideal) m c main_v16 : S8192x128.Idx → EReal)
      = Cert.ReferenceIdeal.Read.val_main_v7 (F := Ideal) (m ((c.tc : Thread nD τ).loc main_arg0)) := by
  show StableHlo.after hostOps0 (fun b => m (c, b)) (Proc.devRef .tc main_v16) = _
  after_results
  unfold Cert.ReferenceIdeal.Read.val_main_v7 Cert.ReferenceIdeal.Read.val_main_v6 Cert.ReferenceIdeal.Read.val_main_v5
    Cert.ReferenceIdeal.Read.val_main_v4 Cert.ReferenceIdeal.Read.val_main_cst_0 Cert.ReferenceIdeal.Read.val_main_v3
    Cert.ReferenceIdeal.Read.val_main_v2 Cert.ReferenceIdeal.Read.val_main_v1 Cert.ReferenceIdeal.Read.val_main_cst
    Cert.ReferenceIdeal.Read.val_main_v0
  rfl

/-- The normalized proxy likewise. -/
theorem V_proxy (c : Dev nD) :
    (V (F := Ideal) m c main_v17 : S8192x128.Idx → EReal)
      = Cert.ReferenceIdeal.Read.val_main_v37 (F := Ideal) (m ((c.tc : Thread nD τ).loc main_arg1)) := by
  show StableHlo.after hostOps0 (fun b => m (c, b)) (Proc.devRef .tc main_v17) = _
  after_results
  unfold Cert.ReferenceIdeal.Read.val_main_v37 Cert.ReferenceIdeal.Read.val_main_v36 Cert.ReferenceIdeal.Read.val_main_v35
    Cert.ReferenceIdeal.Read.val_main_v34 Cert.ReferenceIdeal.Read.val_main_cst_5 Cert.ReferenceIdeal.Read.val_main_v33
    Cert.ReferenceIdeal.Read.val_main_v32 Cert.ReferenceIdeal.Read.val_main_v31 Cert.ReferenceIdeal.Read.val_main_cst_4
    Cert.ReferenceIdeal.Read.val_main_v30
  rfl

/-! ## The kernel program's result -/

/-- The kernel program ends at the specification's loss of the normalized embedding and proxy and the labels: the very
    term the reference ends at. -/
theorem kernel_loss (c : Dev nD) :
    Pipeline.afterTail₀ cfgs (dats (F := Ideal) m) 0 (V0 m) [hostOps1] c main_v30
      = fun _ => Cert.Spec.loss
          (Cert.Spec.pos (Cert.Spec.rows2 (Cert.ReferenceIdeal.Read.val_main_v7 (F := Ideal) (m ((c.tc : Thread nD τ).loc main_arg0))))
            (Cert.Spec.rows1 (m ((c.tc : Thread nD τ).loc main_arg2) : S8192.Idx → BitVec 32)))
          (Cert.Spec.tot (Cert.Spec.rows2 (Cert.ReferenceIdeal.Read.val_main_v7 (F := Ideal) (m ((c.tc : Thread nD τ).loc main_arg0)))))
          (Cert.Spec.prox (Cert.Spec.rows2 (Cert.ReferenceIdeal.Read.val_main_v7 (F := Ideal) (m ((c.tc : Thread nD τ).loc main_arg0))))
            (Cert.Spec.rows2 (Cert.ReferenceIdeal.Read.val_main_v37 (F := Ideal) (m ((c.tc : Thread nD τ).loc main_arg1))))) := by
  rw [tail_val]
  have hpos : ∀ n : Fin 8192, ((dats (F := Ideal) m 0 c).arrAt 5 cfg0.N : S8192x1.Idx → EReal) (ix2 n (0 : Fin 1))
      = Cert.Spec.pos (enArr m c) (Cert.Spec.rows1 (m ((c.tc : Thread nD τ).loc main_arg2) : S8192.Idx → BitVec 32)) n :=
    arr_pos m c _ (V_labels_col m c) (V_labels_row m c)
  have htot := arr_tot m c
  have hprox := arr_prox m c
  simp only [hpos, htot, hprox]
  unfold enArr pnArr
  rw [V_embed, V_proxy]

end Cert.KernelIdeal.Hand

end
-- ==== Proof.lean ====
/-
  The five claims. The two kernel programs (the word-level one and its idealization: the same text, the ideal pass rewrote
  nothing, so `preserves` is trivial) run to the end and leave their arguments unchanged: the hand frame, read at the
  bit-exact and at the ideal instance. The reference's frame is its generated run with the result dropped. On the extended
  reals both programs end at ONE term, the specification's loss
      - (sum over rows n of log ((prox n + pos n) / (prox n + tot n))) / 8192
  of the row-normalized embedding and proxy and the labels: the kernel program because its region leaves the three row
  vectors pos, tot, prox in its output arrays (eight column blocks of 1024 added up per row block, the regrouping of a
  finite sum) and its closing host operations are the loss's; the reference because its 8192 x 8192 matrices, read at a
  row and a column, are the same terms (its off-diagonal mask multiplied in twice is the mask, being 0 or 1).
-/
import proofs.«100202_j1683627180664_1_alg».proof.Defs
import proofs.«100202_j1683627180664_1_alg».proof.Proof.Gen.Kernel
import proofs.«100202_j1683627180664_1_alg».proof.Proof.Gen.Kernel.Skeleton
import proofs.«100202_j1683627180664_1_alg».proof.Proof.Gen.Kernel.Launch
import proofs.«100202_j1683627180664_1_alg».proof.Proof.Gen.Kernel.Points
import proofs.«100202_j1683627180664_1_alg».proof.Proof.Gen.KernelIdeal
import proofs.«100202_j1683627180664_1_alg».proof.Proof.Gen.KernelIdeal.Skeleton
import proofs.«100202_j1683627180664_1_alg».proof.Proof.Gen.KernelIdeal.Launch
import proofs.«100202_j1683627180664_1_alg».proof.Proof.Gen.KernelIdeal.Points
import proofs.«100202_j1683627180664_1_alg».proof.Proof.Gen.ReferenceIdeal
import proofs.«100202_j1683627180664_1_alg».proof.Proof.Gen.Pre_finite_inputs
import proofs.«100202_j1683627180664_1_alg».proof.Proof.Gen.ReferenceIdeal.Run
import proofs.«100202_j1683627180664_1_alg».proof.Proof.Gen.ReferenceIdeal.Read
import proofs.«100202_j1683627180664_1_alg».proof.Proof.Ideal.Launch
import proofs.«100202_j1683627180664_1_alg».proof.Proof.Bits.Launch
import proofs.«100202_j1683627180664_1_alg».proof.Proof.Value.Final
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : @Cert.frame_Kernel Cert.Kernel.Gen.facts Cert.Pre_finite_inputs.Gen.facts :=
  fun m ρ _ => Cert.Kernel.Hand.frame (F := Bits) m ρ

/-- The idealized kernel program runs and leaves its arguments unchanged. -/
theorem frame_kernelIdeal : @Cert.frame_KernelIdeal Cert.KernelIdeal.Gen.facts Cert.Pre_finite_inputs.Gen.facts :=
  fun m ρ _ => Cert.KernelIdeal.Hand.frame (F := Ideal) m ρ

/-- The reference runs and leaves its arguments unchanged: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- On the extended reals both programs end at the specification's loss of the same normalized rows and labels. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Pipeline.afterTail₀ Cert.KernelIdeal.cfgs (Cert.KernelIdeal.Hand.dats (F := Ideal) m) 0
      (Cert.KernelIdeal.Hand.V0 m) [Cert.KernelIdeal.Gen.hostOps1] c Cert.KernelIdeal.main_v30, ?_, ?_⟩
  · refine (θ_run Cert.KernelIdeal.defs _ _).mono (fun r h c => ⟨?_, ?_, ?_, ?_⟩) (Cert.KernelIdeal.Hand.run_main (F := Ideal) m ρ)
    · exact (h c).2 _ Cert.KernelIdeal.Hand.mem_rest_v30
    · exact ((h c).2 _ Cert.KernelIdeal.Hand.mem_rest_arg0).trans (Cert.KernelIdeal.Hand.tail_arg0 m c)
    · exact ((h c).2 _ Cert.KernelIdeal.Hand.mem_rest_arg1).trans (Cert.KernelIdeal.Hand.tail_arg1 m c)
    · exact ((h c).2 _ Cert.KernelIdeal.Hand.mem_rest_arg2).trans (Cert.KernelIdeal.Hand.tail_arg2 m c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v50_eq, Cert.RefValue.ref_loss, (hagree c).1, (hagree c).2.1, (hagree c).2.2]
    exact (Cert.KernelIdeal.Hand.kernel_loss m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
